-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x1 : S_.BroadcastsInDim S4096x1 (![] : Fin 0 → Fin S4096x1.rank)
  reducesTo_S4096x1_S_d0_1 : S4096x1.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg4 : FVec F S4096x1 .f32) (main_arg5 : FVec F S8192x1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S8192x128 .f32) (main_arg3 : FVec F S4096x1 .f32) (main_arg4 : FVec F S4096x1 .f32) (main_arg5 : FVec F S8192x1 .f32) (main_arg6 : IVec S_ 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_v13 main_v16
-- ==== Kernel.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩
abbrev S128x8192 : Shape := ⟨2, ![128, 8192]⟩
abbrev S512x128 : Shape := ⟨2, ![512, 128]⟩
abbrev S128x2048 : Shape := ⟨2, ![128, 2048]⟩
abbrev S512x1 : Shape := ⟨2, ![512, 1]⟩
abbrev S512x2048 : Shape := ⟨2, ![512, 2048]⟩
abbrev S2048 : Shape := ⟨1, ![2048]⟩
abbrev S1x2048 : Shape := ⟨2, ![1, 2048]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S4096x1, .f32⟩
  | .hbm, ⟨4, _⟩ => ⟨S4096x1, .f32⟩
  | .hbm, ⟨5, _⟩ => ⟨S8192x1, .f32⟩
  | .hbm, ⟨6, _⟩ => ⟨S_, .i32⟩
  | .hbm, ⟨7, _⟩ => ⟨S8192x128, .f32⟩
  | .hbm, ⟨8, _⟩ => ⟨S8192x1, .f32⟩
  | .hbm, ⟨9, _⟩ => ⟨S128x8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S128x2048, .f32⟩
  | .local _ .vmem, ⟨3, _⟩ => ⟨S128x2048, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S4096x128_S4096x128_S8192x128_d0 : Shape.Concatenates [S4096x128, S4096x128] S8192x128 0
  concatenates_S4096x1_S4096x1_S8192x1_d0 : Shape.Concatenates [S4096x1, S4096x1] S8192x1 0
  transposes_S8192x128_S128x8192_1_0 : S8192x128.Transposes [1, 0] S128x8192
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  reduces_S128x2048_S2048 : S128x2048.Reduces [0] S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x128_S512 : S512x128.Reduces [1] S512
  reducesTo_S8192x1_S_d0_1 : S8192x1.ReducesTo [0, 1] S_
  h_S_ : 0 < S_.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x8192.size a
  hwx0_1 : ∀ i : grid0.Coords, EltTy.bits .f32 = 32 ∨ (Rect.block (s := S128x8192) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S4096x1, .f32⟩
  | .hbm, ⟨4, _⟩ => ⟨S4096x1, .f32⟩
  | .hbm, ⟨5, _⟩ => ⟨S8192x1, .f32⟩
  | .hbm, ⟨6, _⟩ => ⟨S_, .i32⟩
  | .hbm, ⟨7, _⟩ => ⟨S8192x128, .f32⟩
  | .hbm, ⟨8, _⟩ => ⟨S8192x1, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S128x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  concatenates_S4096x1_S4096x1_S8192x1_d0 : Shape.Concatenates [S4096x1, S4096x1] S8192x1 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192x1_S8192_d1 : S8192x1.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBody.lean ====
import proofs.«139371_g19645180411971_cont_sun_c4_111_5_alg».proof.Proof.Gen.Kernel.Frame
import proofs.«139371_g19645180411971_cont_sun_c4_111_5_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-!
# The kernel body at one grid point, case by case

The grid is 16 × 4: sixteen blocks of 512 rows of the projected points, and for each of them four blocks of 2048
cloud points. At every point the body computes, for its 512 rows, the minimum over its 2048 cloud points of
`‖b‖² − 2⟨a, b⟩` (`k0_pay2`). What it does with it depends only on the second grid coordinate `j`:

* `j = 0`: the scratch column is SET to that minimum (`k0_pay3`);
* `j > 0`: the scratch column becomes the minimum of what it held and the new column (`k0_pay4`);
* `j = 3` (after the update above): the first output block receives `| √(|scratch + ‖a‖²| + ε) − |e| |`
  (`k0_pay5`) and the second `|p|` (`k0_pay6`).

The three theorems below are the body's triples in those three cases, on arbitrary whole memrefs holding arbitrary
contents, at any float instance; each states the contents every buffer ends with.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: the second grid coordinate is zero. -/
abbrev condA (i : grid0.Coords) : Prop := (Scalar.cmpi .ne (Scalar.extui (Scalar.cmpi .eq (BitVec.ofNat 32 (i 1).val) 0#32)) 0#32) = 1#1
/-- The body's second branch: the second grid coordinate is positive. -/
abbrev condB (i : grid0.Coords) : Prop := (Scalar.cmpi .ne (Scalar.extui (Scalar.cmpi .sgt (BitVec.ofNat 32 (i 1).val) 0#32)) 0#32) = 1#1
/-- The body's third branch: the second grid coordinate is the last one, three. -/
abbrev condC (i : grid0.Coords) : Prop := k0_cond3 i = 1#1

/-- Over the 64 points in row-major order the second coordinate is the point's number modulo four. -/
theorem hcondA : ∀ t : Fin cfg0.N, condA (grid0.coords t) ↔ t.val % 4 = 0 :=
  (by decide +kernel : ∀ t : Fin grid0.N, condA (grid0.coords t) ↔ t.val % 4 = 0)
theorem hcondB : ∀ t : Fin cfg0.N, condB (grid0.coords t) ↔ ¬ t.val % 4 = 0 :=
  (by decide +kernel : ∀ t : Fin grid0.N, condB (grid0.coords t) ↔ ¬ t.val % 4 = 0)
theorem hcondC : ∀ t : Fin cfg0.N, condC (grid0.coords t) ↔ t.val % 4 = 3 :=
  (by decide +kernel : ∀ t : Fin grid0.N, condC (grid0.coords t) ↔ t.val % 4 = 3)

/-- The offsets of every load and store of the body are zero: each moves a whole block. -/
theorem off_zero : (![0, 0] : Fin 2 → Nat) = fun _ => 0 := by
  funext a; fin_cases a <;> rfl

/-- A whole-block store over a whole buffer leaves the stored block, whatever the buffer held. -/
theorem read_store_whole {S : Shape} (hr : S.rank = 2 := by rfl) {e : EltTy} (M : Memref sig .tc .vmem S e) (hM : M.IsWhole)
    (off : Fin S.rank → Nat) (hoff : off = fun _ => 0) (inb : ∀ a, off a + S.size a ≤ S.size a)
    (X : S.Idx → Elt F e) (w : S.Idx → Elt F e) :
    M.view.read (Elt F) (M.view.writes (Elt F) (hM.unread X) [(⟨Rect.unit off S.size inb, w⟩ : View.Piece (Elt F) S e)]) = w := by
  rw [View.read_writes_eq_canon _ _ _ (fun y => ⟨_, List.mem_singleton_self _, View.mem_set_unit_zero hoff inb y⟩),
    View.canon_unit_zero hoff]

set_option maxHeartbeats 1000000 in
/-- The first point of a row block (`j = 0`): the scratch column is set to the block's minimum; the outputs are untouched. -/
theorem run_first (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : condA i) (hB : ¬ condB i) (hC : ¬ condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay3 x0 x1)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_store_whole rfl arg8 harg8 _ off_zero]
  simp only [View.readAt_eq_ld, harg2.read_unread, harg3.read_unread, View.ld_unit_zero (S := S512x128) off_zero, View.ld_unit_zero (S := S128x2048) off_zero]

set_option maxHeartbeats 1000000 in
/-- A middle point of a row block (`j = 1, 2`): the scratch column becomes its minimum with the block's; the outputs are untouched. -/
theorem run_mid (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : ¬ condA i) (hB : condB i) (hC : ¬ condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x1 xs)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_store_whole rfl arg8 harg8 _ off_zero]
  simp only [View.readAt_eq_ld, harg2.read_unread, harg3.read_unread, harg8.read_unread, View.ld_unit_zero (S := S512x128) off_zero, View.ld_unit_zero (S := S128x2048) off_zero, View.ld_unit_zero (S := S512x1) off_zero]

set_option maxHeartbeats 1000000 in
/-- The last point of a row block (`j = 3`): the scratch column becomes its minimum with the block's, and from that
    column the two output blocks are written. -/
theorem run_last (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : ¬ condA i) (hB : condB i) (hC : condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 x0 (k0_pay4 x0 x1 xs) x2) ∗ owns (c : Thread nD τ) arg7 fullShare (k0_pay6 x3)
            ∗ owns (c : Thread nD τ) arg8 fullShare (k0_pay4 x0 x1 xs)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store_whole rfl arg6 harg6 _ off_zero]
    sl_unfold_words
    simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]
  isplitl [H5]
  · iexists _; isplitr
    swap; · iexact H5
    ipureintro
    rw [read_store_whole rfl arg7 harg7 _ off_zero]
    simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]
  iexists _; isplitr
  swap; · iexact HS
  ipureintro
  sl_unfold_words
  rw [read_store_whole rfl arg8 harg8 _ off_zero]
  simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]

end Cert.Kernel.Body
end
-- ==== Proof.BitsFrame.lean ====
import proofs.«139371_g19645180411971_cont_sun_c4_111_5_alg».proof.Proof.BitsBody
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-!
# The frame of the kernel's program

What the scratch column holds after each grid point is a recursion on the point (`accAt`): at a point with `j = 0`
the block's column of minima, at the others the minimum of that and what the point before left. The output blocks
written at the points `j = 3` are functions of it (`ftAt`, `mpAt`). With these as the pipeline's proof data the body
obligation is the case's triple at each point, and the library's run of one pipelined region followed by host
operations gives the frame: every execution ends, faults nowhere, and leaves the argument arrays as they were.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The scratch column: a whole buffer of the kernel's own. -/
abbrev scM : Memref sig .tc .vmem S512x1 .f32 := Memref.whole cc0_scratch0

/-- The region's invariant before the first point: the scratch column at anything, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the output windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the points `j = 3` the body stores nothing into the outputs and the pipeline does not write them back. -/
theorem idle4 : ∀ t : Fin cfg0.N, ¬ condC (grid0.coords t) → cfg0.idle 4 (grid0.coords t) = true := by decide +kernel
theorem idle5 : ∀ t : Fin cfg0.N, ¬ condC (grid0.coords t) → cfg0.idle 5 (grid0.coords t) = true := by decide +kernel
theorem noFlush4 : ∀ t : Fin cfg0.N, ¬ condC (grid0.coords t) → (cfg0.win 4).flush t = false := by decide +kernel
theorem noFlush5 : ∀ t : Fin cfg0.N, ¬ condC (grid0.coords t) → (cfg0.win 5).flush t = false := by decide +kernel
/-- At the points `j = 3` it stores both. -/
theorem live4 : ∀ t : Fin cfg0.N, condC (grid0.coords t) → cfg0.idle 4 (grid0.coords t) = false := by decide +kernel
theorem live5 : ∀ t : Fin cfg0.N, condC (grid0.coords t) → cfg0.idle 5 (grid0.coords t) = false := by decide +kernel

/-! ## What the body computes, point by point -/

/-- The four input blocks at point `t`, at their literal types: 512 rows of the projected points, 2048 columns of the
    transposed cloud, and the 512-row blocks of the two column inputs. -/
abbrev blkA (c : Dev nD) (t : Fin cfg0.N) : Vec F S512x128 .f32 := iblk m c 0 t
abbrev blkB (c : Dev nD) (t : Fin cfg0.N) : Vec F S128x2048 .f32 := iblk m c 1 t
abbrev blkE (c : Dev nD) (t : Fin cfg0.N) : Vec F S512x1 .f32 := iblk m c 2 t
abbrev blkP (c : Dev nD) (t : Fin cfg0.N) : Vec F S512x1 .f32 := iblk m c 3 t

/-- THE RUNNING MINIMUM. What the scratch column holds after the body at point `n`: at a point `j = 0` the column of the
    block's minima, at the others the minimum of that column and what the point before left. -/
def accAt (c : Dev nD) : (n : ℕ) → n < cfg0.N → Vec F S512x1 .f32
  | 0, hn => k0_pay3 (blkA m c ⟨0, hn⟩) (blkB m c ⟨0, hn⟩)
  | n + 1, hn =>
    if (n + 1) % 4 = 0 then k0_pay3 (blkA m c ⟨n + 1, hn⟩) (blkB m c ⟨n + 1, hn⟩)
    else k0_pay4 (blkA m c ⟨n + 1, hn⟩) (blkB m c ⟨n + 1, hn⟩) (accAt c n (Nat.lt_of_succ_lt hn))

/-- At a point `j = 0`: the column is set. -/
theorem accAt_first (c : Dev nD) (t : Fin cfg0.N) (h : t.val % 4 = 0) :
    accAt m c t.val t.isLt = k0_pay3 (blkA m c t) (blkB m c t) := by
  obtain ⟨n, hn⟩ := t
  cases n with
  | zero => rfl
  | succ n => exact if_pos h

/-- At any other point: the minimum with what the point before left. -/
theorem accAt_next (c : Dev nD) (t : Fin cfg0.N) (h : ¬ t.val % 4 = 0) :
    accAt m c t.val t.isLt = k0_pay4 (blkA m c t) (blkB m c t) (accAt m c (t.val - 1) (Nat.lt_of_le_of_lt (Nat.sub_le _ _) t.isLt)) := by
  obtain ⟨n, hn⟩ := t
  cases n with
  | zero => exact absurd (Nat.zero_mod _) h
  | succ n => exact if_neg h

/-- What a point `j = 3` writes into the first output block: from the scratch column after that point. -/
def ftAt (c : Dev nD) (t : Fin cfg0.N) : Vec F S512x1 .f32 := k0_pay5 (blkA m c t) (accAt m c t.val t.isLt) (blkE m c t)
/-- And into the second: the absolute values of its column block. -/
def mpAt (c : Dev nD) (t : Fin cfg0.N) : Vec F S512x1 .f32 := k0_pay6 (blkP m c t)

/-- The region's invariant before position `n`: before the first point the scratch column at anything; afterwards at what
    the point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block, the
    outputs' at `ftAt` and `mpAt` (consulted only at the points that write them back); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ftAt m c t
    | ⟨5, _⟩ => mpAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = ftAt m c t := by dsimp only [dats]
theorem after5 (c : Dev nD) (t : Fin cfg0.N) : (dats m 0 c).after 5 t = mpAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4000000 in
/-- The body at any point: the case its second coordinate selects, run on the point's memrefs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 4 = 0
  · have hA : condA (grid0.coords t) := (hcondA t).mpr h0
    have hB : ¬ condB (grid0.coords t) := fun h => ((hcondB t).mp h) h0
    have hC : ¬ condC (grid0.coords t) := fun h => by have := (hcondC t).mp h; omega
    rw [Dat.leavesExact_idle (dats m 0 c) 4 t (idle4 t hC) (noFlush4 t hC), Dat.leavesExact_idle (dats m 0 c) 5 t (idle5 t hC) (noFlush5 t hC)]
    rw [accAt_first m c t h0]
    by_cases hz : t.val = 0
    ·
      rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) ds Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hA : ¬ condA (grid0.coords t) := fun h => h0 ((hcondA t).mp h)
    have hB : condB (grid0.coords t) := (hcondB t).mpr h0
    have hz : t.val ≠ 0 := fun h => h0 (by rw [h])
    rw [accAt_next m c t h0]
    by_cases h3 : t.val % 4 = 3
    · have hC : condC (grid0.coords t) := (hcondC t).mpr h3
      rw [show (dats m 0 c).leavesExact 4 t = owns (c : Thread nD τ) (ms4 t) fullShare ((dats m 0 c).after 4 t) from by
        unfold Dat.leavesExact; rw [live4 t hC], after4]
      rw [show (dats m 0 c).leavesExact 5 t = owns (c : Thread nD τ) (ms5 t) fullShare ((dats m 0 c).after 5 t) from by
        unfold Dat.leavesExact; rw [live5 t hC], after5]
      unfold ftAt mpAt
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hC : ¬ condC (grid0.coords t) := fun h => h3 ((hcondC t).mp h)
      rw [Dat.leavesExact_idle (dats m 0 c) 4 t (idle4 t hC) (noFlush4 t hC), Dat.leavesExact_idle (dats m 0 c) 5 t (idle5 t hC) (noFlush5 t hC)]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS0, Hg⟩
  isplitl [HS0]
  · iexists _; iexact HS0
  iexact Hg

/-! ## The run and the frame -/

set_option backward.isDefEq.respectTransparency.types false in
/-- Every weakly fair execution of the program terminates; at the end each array of the pipeline holds what the
    library computes from the proof data, every other unscoped buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body
end
-- ==== Proof.IdealBody.lean ====
import proofs.«139371_g19645180411971_cont_sun_c4_111_5_alg».proof.Proof.Gen.KernelIdeal.Frame
import proofs.«139371_g19645180411971_cont_sun_c4_111_5_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-!
# The kernel body at one grid point, case by case

The grid is 16 × 4: sixteen blocks of 512 rows of the projected points, and for each of them four blocks of 2048
cloud points. At every point the body computes, for its 512 rows, the minimum over its 2048 cloud points of
`‖b‖² − 2⟨a, b⟩` (`k0_pay2`). What it does with it depends only on the second grid coordinate `j`:

* `j = 0`: the scratch column is SET to that minimum (`k0_pay3`);
* `j > 0`: the scratch column becomes the minimum of what it held and the new column (`k0_pay4`);
* `j = 3` (after the update above): the first output block receives `| √(|scratch + ‖a‖²| + ε) − |e| |`
  (`k0_pay5`) and the second `|p|` (`k0_pay6`).

The three theorems below are the body's triples in those three cases, on arbitrary whole memrefs holding arbitrary
contents, at any float instance; each states the contents every buffer ends with.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch: the second grid coordinate is zero. -/
abbrev condA (i : grid0.Coords) : Prop := (Scalar.cmpi .ne (Scalar.extui (Scalar.cmpi .eq (BitVec.ofNat 32 (i 1).val) 0#32)) 0#32) = 1#1
/-- The body's second branch: the second grid coordinate is positive. -/
abbrev condB (i : grid0.Coords) : Prop := (Scalar.cmpi .ne (Scalar.extui (Scalar.cmpi .sgt (BitVec.ofNat 32 (i 1).val) 0#32)) 0#32) = 1#1
/-- The body's third branch: the second grid coordinate is the last one, three. -/
abbrev condC (i : grid0.Coords) : Prop := k0_cond3 i = 1#1

/-- Over the 64 points in row-major order the second coordinate is the point's number modulo four. -/
theorem hcondA : ∀ t : Fin cfg0.N, condA (grid0.coords t) ↔ t.val % 4 = 0 :=
  (by decide +kernel : ∀ t : Fin grid0.N, condA (grid0.coords t) ↔ t.val % 4 = 0)
theorem hcondB : ∀ t : Fin cfg0.N, condB (grid0.coords t) ↔ ¬ t.val % 4 = 0 :=
  (by decide +kernel : ∀ t : Fin grid0.N, condB (grid0.coords t) ↔ ¬ t.val % 4 = 0)
theorem hcondC : ∀ t : Fin cfg0.N, condC (grid0.coords t) ↔ t.val % 4 = 3 :=
  (by decide +kernel : ∀ t : Fin grid0.N, condC (grid0.coords t) ↔ t.val % 4 = 3)

/-- The offsets of every load and store of the body are zero: each moves a whole block. -/
theorem off_zero : (![0, 0] : Fin 2 → Nat) = fun _ => 0 := by
  funext a; fin_cases a <;> rfl

/-- A whole-block store over a whole buffer leaves the stored block, whatever the buffer held. -/
theorem read_store_whole {S : Shape} (hr : S.rank = 2 := by rfl) {e : EltTy} (M : Memref sig .tc .vmem S e) (hM : M.IsWhole)
    (off : Fin S.rank → Nat) (hoff : off = fun _ => 0) (inb : ∀ a, off a + S.size a ≤ S.size a)
    (X : S.Idx → Elt F e) (w : S.Idx → Elt F e) :
    M.view.read (Elt F) (M.view.writes (Elt F) (hM.unread X) [(⟨Rect.unit off S.size inb, w⟩ : View.Piece (Elt F) S e)]) = w := by
  rw [View.read_writes_eq_canon _ _ _ (fun y => ⟨_, List.mem_singleton_self _, View.mem_set_unit_zero hoff inb y⟩),
    View.canon_unit_zero hoff]

set_option maxHeartbeats 1000000 in
/-- The first point of a row block (`j = 0`): the scratch column is set to the block's minimum; the outputs are untouched. -/
theorem run_first (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : condA i) (hB : ¬ condB i) (hC : ¬ condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay3 x0 x1)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_store_whole rfl arg8 harg8 _ off_zero]
  simp only [View.readAt_eq_ld, harg2.read_unread, harg3.read_unread, View.ld_unit_zero (S := S512x128) off_zero, View.ld_unit_zero (S := S128x2048) off_zero]

set_option maxHeartbeats 1000000 in
/-- A middle point of a row block (`j = 1, 2`): the scratch column becomes its minimum with the block's; the outputs are untouched. -/
theorem run_mid (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : ¬ condA i) (hB : condB i) (hC : ¬ condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x1 xs)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_store_whole rfl arg8 harg8 _ off_zero]
  simp only [View.readAt_eq_ld, harg2.read_unread, harg3.read_unread, harg8.read_unread, View.ld_unit_zero (S := S512x128) off_zero, View.ld_unit_zero (S := S128x2048) off_zero, View.ld_unit_zero (S := S512x1) off_zero]

set_option maxHeartbeats 1000000 in
/-- The last point of a row block (`j = 3`): the scratch column becomes its minimum with the block's, and from that
    column the two output blocks are written. -/
theorem run_last (c : Dev nD) (i : grid0.Coords)
    (arg2 : Memref sig .tc .vmem S512x128 .f32) (harg2 : arg2.IsWhole) (arg3 : Memref sig .tc .vmem S128x2048 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hA : ¬ condA i) (hB : condB i) (hC : condC i)
    (x0 : Vec F S512x128 .f32) (x1 : Vec F S128x2048 .f32) (x2 x3 x4 x5 xs : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 x0 (k0_pay4 x0 x1 xs) x2) ∗ owns (c : Thread nD τ) arg7 fullShare (k0_pay6 x3)
            ∗ owns (c : Thread nD τ) arg8 fullShare (k0_pay4 x0 x1 xs)) -∗ K ⟨⟩))
      ⊢ wp frame (wpE (defs₀ (F := F)) Variants.none c none) E (cc0__dist_loss_kernel i arg2 harg2 arg3 harg3 arg4 harg4 arg5 harg5 arg6 harg6 arg7 harg7 arg8 harg8) K := by
  simp only [cc0__dist_loss_kernel_eq_skeleton]; unfold cc0__dist_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hA | exact hB | exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store_whole rfl arg6 harg6 _ off_zero]
    sl_unfold_words
    simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]
  isplitl [H5]
  · iexists _; isplitr
    swap; · iexact H5
    ipureintro
    rw [read_store_whole rfl arg7 harg7 _ off_zero]
    simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]
  iexists _; isplitr
  swap; · iexact HS
  ipureintro
  sl_unfold_words
  rw [read_store_whole rfl arg8 harg8 _ off_zero]
  simp only [View.readAt_eq_ld, harg2.read_unread, harg3.read_unread, harg4.read_unread, harg5.read_unread, harg8.read_unread, View.ld_unit_zero (S := S512x128) off_zero, View.ld_unit_zero (S := S128x2048) off_zero, View.ld_unit_zero (S := S512x1) off_zero, View.readCov_unit_zero (S := S512x1) _ off_zero]

end Cert.KernelIdeal.Body
end
-- ==== Proof.IdealFrame.lean ====
import proofs.«139371_g19645180411971_cont_sun_c4_111_5_alg».proof.Proof.IdealBody
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-!
# The frame of the kernel's program

What the scratch column holds after each grid point is a recursion on the point (`accAt`): at a point with `j = 0`
the block's column of minima, at the others the minimum of that and what the point before left. The output blocks
written at the points `j = 3` are functions of it (`ftAt`, `mpAt`). With these as the pipeline's proof data the body
obligation is the case's triple at each point, and the library's run of one pipelined region followed by host
operations gives the frame: every execution ends, faults nowhere, and leaves the argument arrays as they were.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The scratch column: a whole buffer of the kernel's own. -/
abbrev scM : Memref sig .tc .vmem S512x1 .f32 := Memref.whole cc0_scratch0

/-- The region's invariant before the first point: the scratch column at anything, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the output windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the points `j = 3` the body stores nothing into the outputs and the pipeline does not write them back. -/
theorem idle4 : ∀ t : Fin cfg0.N, ¬ condC (grid0.coords t) → cfg0.idle 4 (grid0.coords t) = true := by decide +kernel
theorem idle5 : ∀ t : Fin cfg0.N, ¬ condC (grid0.coords t) → cfg0.idle 5 (grid0.coords t) = true := by decide +kernel
theorem noFlush4 : ∀ t : Fin cfg0.N, ¬ condC (grid0.coords t) → (cfg0.win 4).flush t = false := by decide +kernel
theorem noFlush5 : ∀ t : Fin cfg0.N, ¬ condC (grid0.coords t) → (cfg0.win 5).flush t = false := by decide +kernel
/-- At the points `j = 3` it stores both. -/
theorem live4 : ∀ t : Fin cfg0.N, condC (grid0.coords t) → cfg0.idle 4 (grid0.coords t) = false := by decide +kernel
theorem live5 : ∀ t : Fin cfg0.N, condC (grid0.coords t) → cfg0.idle 5 (grid0.coords t) = false := by decide +kernel

/-! ## What the body computes, point by point -/

/-- The four input blocks at point `t`, at their literal types: 512 rows of the projected points, 2048 columns of the
    transposed cloud, and the 512-row blocks of the two column inputs. -/
abbrev blkA (c : Dev nD) (t : Fin cfg0.N) : Vec F S512x128 .f32 := iblk m c 0 t
abbrev blkB (c : Dev nD) (t : Fin cfg0.N) : Vec F S128x2048 .f32 := iblk m c 1 t
abbrev blkE (c : Dev nD) (t : Fin cfg0.N) : Vec F S512x1 .f32 := iblk m c 2 t
abbrev blkP (c : Dev nD) (t : Fin cfg0.N) : Vec F S512x1 .f32 := iblk m c 3 t

/-- THE RUNNING MINIMUM. What the scratch column holds after the body at point `n`: at a point `j = 0` the column of the
    block's minima, at the others the minimum of that column and what the point before left. -/
def accAt (c : Dev nD) : (n : ℕ) → n < cfg0.N → Vec F S512x1 .f32
  | 0, hn => k0_pay3 (blkA m c ⟨0, hn⟩) (blkB m c ⟨0, hn⟩)
  | n + 1, hn =>
    if (n + 1) % 4 = 0 then k0_pay3 (blkA m c ⟨n + 1, hn⟩) (blkB m c ⟨n + 1, hn⟩)
    else k0_pay4 (blkA m c ⟨n + 1, hn⟩) (blkB m c ⟨n + 1, hn⟩) (accAt c n (Nat.lt_of_succ_lt hn))

/-- At a point `j = 0`: the column is set. -/
theorem accAt_first (c : Dev nD) (t : Fin cfg0.N) (h : t.val % 4 = 0) :
    accAt m c t.val t.isLt = k0_pay3 (blkA m c t) (blkB m c t) := by
  obtain ⟨n, hn⟩ := t
  cases n with
  | zero => rfl
  | succ n => exact if_pos h

/-- At any other point: the minimum with what the point before left. -/
theorem accAt_next (c : Dev nD) (t : Fin cfg0.N) (h : ¬ t.val % 4 = 0) :
    accAt m c t.val t.isLt = k0_pay4 (blkA m c t) (blkB m c t) (accAt m c (t.val - 1) (Nat.lt_of_le_of_lt (Nat.sub_le _ _) t.isLt)) := by
  obtain ⟨n, hn⟩ := t
  cases n with
  | zero => exact absurd (Nat.zero_mod _) h
  | succ n => exact if_neg h

/-- What a point `j = 3` writes into the first output block: from the scratch column after that point. -/
def ftAt (c : Dev nD) (t : Fin cfg0.N) : Vec F S512x1 .f32 := k0_pay5 (blkA m c t) (accAt m c t.val t.isLt) (blkE m c t)
/-- And into the second: the absolute values of its column block. -/
def mpAt (c : Dev nD) (t : Fin cfg0.N) : Vec F S512x1 .f32 := k0_pay6 (blkP m c t)

/-- The region's invariant before position `n`: before the first point the scratch column at anything; afterwards at what
    the point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block, the
    outputs' at `ftAt` and `mpAt` (consulted only at the points that write them back); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ftAt m c t
    | ⟨5, _⟩ => mpAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = ftAt m c t := by dsimp only [dats]
theorem after5 (c : Dev nD) (t : Fin cfg0.N) : (dats m 0 c).after 5 t = mpAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4000000 in
/-- The body at any point: the case its second coordinate selects, run on the point's memrefs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 4 = 0
  · have hA : condA (grid0.coords t) := (hcondA t).mpr h0
    have hB : ¬ condB (grid0.coords t) := fun h => ((hcondB t).mp h) h0
    have hC : ¬ condC (grid0.coords t) := fun h => by have := (hcondC t).mp h; omega
    rw [Dat.leavesExact_idle (dats m 0 c) 4 t (idle4 t hC) (noFlush4 t hC), Dat.leavesExact_idle (dats m 0 c) 5 t (idle5 t hC) (noFlush5 t hC)]
    rw [accAt_first m c t h0]
    by_cases hz : t.val = 0
    ·
      rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) ds Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    ·
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hA : ¬ condA (grid0.coords t) := fun h => h0 ((hcondA t).mp h)
    have hB : condB (grid0.coords t) := (hcondB t).mpr h0
    have hz : t.val ≠ 0 := fun h => h0 (by rw [h])
    rw [accAt_next m c t h0]
    by_cases h3 : t.val % 4 = 3
    · have hC : condC (grid0.coords t) := (hcondC t).mpr h3
      rw [show (dats m 0 c).leavesExact 4 t = owns (c : Thread nD τ) (ms4 t) fullShare ((dats m 0 c).after 4 t) from by
        unfold Dat.leavesExact; rw [live4 t hC], after4]
      rw [show (dats m 0 c).leavesExact 5 t = owns (c : Thread nD τ) (ms5 t) fullShare ((dats m 0 c).after 5 t) from by
        unfold Dat.leavesExact; rw [live5 t hC], after5]
      unfold ftAt mpAt
      rw [accAt_next m c t h0]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hC : ¬ condC (grid0.coords t) := fun h => h3 ((hcondC t).mp h)
      rw [Dat.leavesExact_idle (dats m 0 c) 4 t (idle4 t hC) (noFlush4 t hC), Dat.leavesExact_idle (dats m 0 c) 5 t (idle5 t hC) (noFlush5 t hC)]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) scM (Memref.isWhole_whole _) hA hB hC (blkA m c t) (blkB m c t) (blkE m c t) (blkP m c t) ((dats m 0 c).before 4 t d4) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS0, Hg⟩
  isplitl [HS0]
  · iexists _; iexact HS0
  iexact Hg

/-! ## The run and the frame -/

set_option backward.isDefEq.respectTransparency.types false in
/-- Every weakly fair execution of the program terminates; at the end each array of the pipeline holds what the
    library computes from the proof data, every other unscoped buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body
end
-- ==== Proof.Spec.lean ====
import Idealize.ShloMosaic.PureOps.Ideal
import Idealize.ShloMosaic.PureOps.Ideal.Laws
import Idealize.ShloMosaic.Lib.ValueIdx
import Idealize.ShloMosaic.Lib.ValueIdxRank1

/-!
# The loss, row by row, over the extended reals

For projected points `P` (8192 × 128), cloud points `C` (8192 × 128), and two columns `E`, `M` (8192 × 1):
row `i`'s squared distance to the nearest cloud point is `min_j (‖p_i‖² + ‖c_j‖² − 2⟨p_i, c_j⟩)`, its first term
`| √(|that| + ε) − |e_i| |`, its second `|m_i|`. The kernel takes the minimum block by block over four blocks of 2048
cloud points of `‖c_j‖² − 2⟨p_i, c_j⟩`, folds the four from left to right, and adds `‖p_i‖²` at the end; the two agree
because adding a fixed number that is not `−∞` is monotone, hence commutes with a minimum, and `‖p_i‖²`, a sum of
squares, is never `−∞`.
-/

noncomputable section

namespace Cert.Spec

open Idealize.ShloMosaic Idealize.ShloMosaic.ValueIdx

/-- The literals both programs share, at their exact binary values: `2`, `1e-7` rounded to f32, `+∞`. -/
def two : EReal := Ideal.ofBits .f32 0x40000000#32
def eps : EReal := Ideal.ofBits .f32 0x33D6BF95#32
def inf : EReal := Ideal.ofBits .f32 0x7F800000#32

/-- The absolute value on the extended reals, as both programs compute it. -/
def eabs (x : EReal) : EReal := max x (-x)

/-- `‖row i of X‖²`. -/
def sq (X : (⟨2, ![8192, 128]⟩ : Shape).Idx → EReal) (i : Fin 8192) : EReal := ∑ k : Fin 128, X (ix2 i k) * X (ix2 i k)
/-- `⟨row i of X, row j of Y⟩`. -/
def dot (X Y : (⟨2, ![8192, 128]⟩ : Shape).Idx → EReal) (i j : Fin 8192) : EReal := ∑ k : Fin 128, X (ix2 i k) * Y (ix2 j k)

/-- The reference's squared distance from row `i` to the nearest cloud point: one minimum over all 8192 of them. -/
def nearestR (P C : (⟨2, ![8192, 128]⟩ : Shape).Idx → EReal) (i : Fin 8192) : EReal :=
  (Finset.univ : Finset (Fin 8192)).fold min inf (fun j => (sq P i + sq C j) - two * dot P C i j)

/-- The kernel's minimum over block `b` of 2048 cloud points, without `‖p_i‖²`. -/
def blockMin (P C : (⟨2, ![8192, 128]⟩ : Shape).Idx → EReal) (i : Fin 8192) (b : Fin 4) : EReal :=
  (Finset.univ : Finset (Fin 2048)).fold min inf
    (fun k => sq C ⟨2048 * b.val + k.val, by omega⟩ - two * dot P C i ⟨2048 * b.val + k.val, by omega⟩)

/-- The kernel's squared distance: the four blocks' minima folded from the left, then `‖p_i‖²` added. -/
def nearestK (P C : (⟨2, ![8192, 128]⟩ : Shape).Idx → EReal) (i : Fin 8192) : EReal :=
  min (min (min (blockMin P C i 0) (blockMin P C i 1)) (blockMin P C i 2)) (blockMin P C i 3) + sq P i

/-- The pattern `0x7F800000` is `+∞`. -/
theorem inf_eq_top : inf = ⊤ := by simp [inf, Ideal.ofBits, Ideal.ieee]

/-- A square is nonnegative over the extended reals, at the infinities too. -/
theorem ereal_mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- A sum of squares is never `−∞`. -/
theorem sq_ne_bot (X : (⟨2, ![8192, 128]⟩ : Shape).Idx → EReal) (i : Fin 8192) : sq X i ≠ ⊥ := by
  have h : 0 ≤ sq X i := Finset.sum_nonneg (fun k _ => ereal_mul_self_nonneg _)
  intro hb
  rw [hb] at h
  exact absurd h (not_le.mpr EReal.bot_lt_zero)

/-- Adding a fixed number commutes with a minimum. -/
theorem min_add_right (x y a : EReal) : min x y + a = min (x + a) (y + a) :=
  Monotone.map_min (f := fun z => z + a) (fun _ _ h => add_le_add h le_rfl)

/-- Adding a fixed number that is not `−∞` commutes with a minimum taken from `+∞`. -/
theorem fold_min_add {n : ℕ} (F : Fin n → EReal) (a : EReal) (ha : a ≠ ⊥) :
    (Finset.univ : Finset (Fin n)).fold min ⊤ F + a
      = (Finset.univ : Finset (Fin n)).fold min ⊤ (fun k => F k + a) := by
  have h := Finset.fold_hom (op := min) (op' := min) (s := (Finset.univ : Finset (Fin n))) (b := (⊤ : EReal))
    (f := F) (m := fun z => z + a) (fun x y => min_add_right x y a)
  simp only [EReal.top_add_of_ne_bot ha] at h
  exact h.symm

/-- The minimum of `G` over block `b` of 2048 indices. -/
def minOverBlock (G : Fin 8192 → EReal) (b : Fin 4) : EReal :=
  (Finset.univ : Finset (Fin 2048)).fold min ⊤ (fun k => G ⟨2048 * b.val + k.val, by omega⟩)

/-- A number is below a block's minimum exactly when it is below `G` at every index of the block. -/
theorem le_minOverBlock (G : Fin 8192 → EReal) (b : Fin 4) (c : EReal) :
    c ≤ minOverBlock G b ↔ ∀ k : Fin 2048, c ≤ G ⟨2048 * b.val + k.val, by omega⟩ := by
  unfold minOverBlock
  simp [Finset.le_fold_min]

/-- The four block minima folded together are the minimum over all 8192 indices. -/
theorem blocks_join (G : Fin 8192 → EReal) :
    min (min (min (minOverBlock G 0) (minOverBlock G 1)) (minOverBlock G 2)) (minOverBlock G 3)
      = (Finset.univ : Finset (Fin 8192)).fold min ⊤ G := by
  apply eq_of_forall_le_iff
  intro c
  rw [le_min_iff, le_min_iff, le_min_iff, Finset.le_fold_min]
  constructor
  · rintro ⟨⟨⟨h0, h1⟩, h2⟩, h3⟩
    refine ⟨le_top, fun j _ => ?_⟩
    have key : ∀ b : Fin 4, c ≤ minOverBlock G b := by
      intro b
      fin_cases b
      exacts [h0, h1, h2, h3]
    have hk := (le_minOverBlock G ⟨j.val / 2048, by omega⟩ c).mp (key _) ⟨j.val % 2048, by omega⟩
    have hj : (⟨2048 * (j.val / 2048) + j.val % 2048, by omega⟩ : Fin 8192) = j := Fin.ext (Nat.div_add_mod _ _)
    rw [hj] at hk
    exact hk
  · rintro ⟨_, h⟩
    refine ⟨⟨⟨?_, ?_⟩, ?_⟩, ?_⟩ <;> exact (le_minOverBlock G _ c).mpr (fun k => h _ (Finset.mem_univ _))

/-- THE LAW that joins the two programs. -/
theorem nearestK_eq_nearestR (P C : (⟨2, ![8192, 128]⟩ : Shape).Idx → EReal) (i : Fin 8192) :
    nearestK P C i = nearestR P C i := by
  have ha := sq_ne_bot P i
  have hb : ∀ b : Fin 4, blockMin P C i b = minOverBlock (fun j => sq C j - two * dot P C i j) b := by
    intro b
    unfold blockMin minOverBlock
    rw [inf_eq_top]
  unfold nearestK nearestR
  rw [hb, hb, hb, hb, blocks_join, fold_min_add _ _ ha, inf_eq_top]
  congr 1
  funext j
  rw [sub_eq_add_neg, sub_eq_add_neg, add_comm (sq P i) (sq C j), add_right_comm]

/-- A row's first term from its squared distance `d` and its entry `e` of the column `E`. -/
def term (d e : EReal) : EReal := eabs (Ideal.sqrt (eabs d + eps) - eabs e)

/-- The mean both programs end with: the sum from the initial value `0` over the 8192 rows, divided by `8192`. -/
def mean (f : Fin 8192 → EReal) : EReal :=
  Ideal.div (Ideal.ofBits .f32 0x00000000#32 + ∑ i : Fin 8192, f i) (Ideal.ofBits .f32 0x46000000#32)

end Cert.Spec

end
-- ==== Proof.IdealPay.lean ====
import proofs.«139371_g19645180411971_cont_sun_c4_111_5_alg».proof.Proof.Gen.KernelIdeal.Skeleton
import proofs.«139371_g19645180411971_cont_sun_c4_111_5_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The body's payloads at a row, at the ideal values

Each payload of the kernel body is a 512 × 1 column; this module reads each at row `r` as a plain expression of the
blocks it was computed from: the block minimum as a fold of `min` from `+∞` over the block's 2048 columns of
`‖b_k‖² − 2⟨a_r, b_k⟩` (the matrix product into a zero accumulator and the two lane sums as finite sums, the changes
of float format the identity), the running minimum as `min`, the first output as the row's term, the second as an
absolute value.
-/

noncomputable section

namespace Cert.KernelIdeal.Pay

open Idealize.ShloMosaic Idealize.ShloMosaic.ValueIdx Cert.KernelIdeal Cert.KernelIdeal.Gen

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column of row sums of squares of a `512 × 128` block, at row `r`. -/
theorem rowsq_apply (y : FVec Ideal S512x128 .f32) (r : Fin 512) (u : Fin 1) :
    shapeCast S512x1 (multiReduction (F := Ideal) .add [1] S512 (mulf y y) 0x00000000#32 reduces_S512x128_S512 (.inl rfl) rfl) shapeCasts_S512_S512x1 (ix2 r u)
      = ∑ d : Fin 128, (y (ix2 r d) : EReal) * y (ix2 r d) := by
  refine (shapeCast_a_a1_apply _ _ r u).trans ?_
  refine (Ideal.multiReduction_add_single (mulf y y) 0x00000000#32 reduces_S512x128_S512 (.inl rfl) rfl (ix1 r)).trans ?_
  refine Finset.sum_congr rfl fun d _ => ?_
  have e : reduces_S512x128_S512.lift (ix1 r) d = ix2 r d :=
    funext fun a => Fin.ext (by match a with | ⟨0, _⟩ => rfl | ⟨1, _⟩ => rfl)
  rw [e]; rfl

/-- The row of column sums of squares of a `128 × 2048` block, spread over 512 rows, at `(p, k)`. -/
theorem colsq_apply (y : FVec Ideal S128x2048 .f32) (p : Fin 512) (k : Fin 2048) :
    broadcastTo S512x2048 (shapeCast S1x2048 (multiReduction (F := Ideal) .add [0] S2048 (mulf y y) 0x00000000#32 reduces_S128x2048_S2048 (.inl rfl) rfl) shapeCasts_S2048_S1x2048) broadcasts_S1x2048_S512x2048 (ix2 p k)
      = ∑ d : Fin 128, (y (ix2 d k) : EReal) * y (ix2 d k) := by
  refine (broadcastTo_1b_ab_apply _ _ p k).trans ?_
  refine (shapeCast_a_1a_apply _ _ 0 k).trans ?_
  refine (Ideal.multiReduction_add_single (mulf y y) 0x00000000#32 reduces_S128x2048_S2048 (.inl rfl) rfl (ix1 k)).trans ?_
  refine Finset.sum_congr rfl fun d _ => ?_
  have e : reduces_S128x2048_S2048.lift (ix1 k) d = ix2 d k :=
    funext fun a => Fin.ext (by match a with | ⟨0, _⟩ => rfl | ⟨1, _⟩ => rfl)
  rw [e]; rfl

/-- The column of row minima from `+∞` of a `512 × 2048` block, at row `r`. -/
theorem rowmin_apply (z : FVec Ideal S512x2048 .f32) (r : Fin 512) (u : Fin 1) :
    shapeCast S512x1 (multiReduction (F := Ideal) .minimumf [1] S512 z 0x7F800000#32 reduces_S512x2048_S512 (.inl rfl) rfl) shapeCasts_S512_S512x1 (ix2 r u)
      = (Finset.univ : Finset (Fin 2048)).fold min Cert.Spec.inf (fun k => (z (ix2 r k) : EReal)) := by
  refine (shapeCast_a_a1_apply _ _ r u).trans ?_
  refine (multiReduction_minimumf_eq_fold z 0x7F800000#32 reduces_S512x2048_S512 (.inl rfl) rfl (ix1 r)).trans ?_
  refine (reduces_S512x2048_S512.fold_filter_drop_single _ _ z (ix1 r)).trans ?_
  have e : (z ∘ reduces_S512x2048_S512.lift (ix1 r)) = fun k : Fin 2048 => z (ix2 r k) :=
    funext fun k => congrArg z (funext fun a => Fin.ext (by match a with | ⟨0, _⟩ => rfl | ⟨1, _⟩ => rfl))
  rw [e]; rfl

/-! The operand indices of the matrix product `[512,128] × [128,2048]` (contraction over axis 1 of the left and axis 0 of the right), coordinate by coordinate. -/
theorem lhs_matmul_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_matmul_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_matmul_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_matmul_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The matrix product into the zero accumulator at `(p, k)`: the sum over the 128 contracted coordinates. -/
theorem matmul_zero_apply (a : FVec Ideal S512x128 .bf16) (b : FVec Ideal S128x2048 .bf16) (p : Fin 512) (k : Fin 2048) :
    matmul dot_S512x128_S128x2048_S512x2048_1_0_0_1_n_n none a b (constant (F := Ideal) S512x2048 .f32 0x00000000#32) (ix2 p k)
      = ∑ d : Fin 128, (a (ix2 p d) : EReal) * b (ix2 d k) := by
  refine (Ideal.matmul_constant_zero_apply dot_S512x128_S128x2048_S512x2048_1_0_0_1_n_n none a b (ix2 p k)).trans ?_
  rw [← Equiv.sum_comp (contrEquiv1 dot_S512x128_S128x2048_S512x2048_1_0_0_1_n_n 128 rfl rfl).symm]
  refine Finset.sum_congr rfl fun d _ => ?_
  have hk := contrEquiv1_symm_val dot_S512x128_S128x2048_S512x2048_1_0_0_1_n_n 128 rfl rfl d
  have el : dot_S512x128_S128x2048_S512x2048_1_0_0_1_n_n.lhsIdx (ix2 p k) ((contrEquiv1 dot_S512x128_S128x2048_S512x2048_1_0_0_1_n_n 128 rfl rfl).symm d) = ix2 p d := funext fun ax => Fin.ext (by
    match ax with
    | ⟨0, _⟩ => exact lhs_matmul_0 _ _
    | ⟨1, _⟩ => exact (lhs_matmul_1 _ _).trans hk)
  have er : dot_S512x128_S128x2048_S512x2048_1_0_0_1_n_n.rhsIdx (ix2 p k) ((contrEquiv1 dot_S512x128_S128x2048_S512x2048_1_0_0_1_n_n 128 rfl rfl).symm d) = ix2 d k := funext fun ax => Fin.ext (by
    match ax with
    | ⟨0, _⟩ => exact (rhs_matmul_0 _ _).trans hk
    | ⟨1, _⟩ => exact rhs_matmul_1 _ _)
  rw [el, er]

/-- The block minimum at row `r`: over the block's 2048 cloud points `k`, of `‖b_k‖² − 2⟨a_r, b_k⟩`. -/
theorem pay2_apply (x0 : Vec Ideal S512x128 .f32) (x1 : Vec Ideal S128x2048 .f32) (r : Fin 512) :
    (k0_pay2 (F := Ideal) x0 x1 (ix2 r 0) : EReal)
      = (Finset.univ : Finset (Fin 2048)).fold min Cert.Spec.inf
          (fun k => (∑ d : Fin 128, (x1 (ix2 d k) : EReal) * x1 (ix2 d k)) - Cert.Spec.two * ∑ d : Fin 128, (x0 (ix2 r d) : EReal) * x1 (ix2 d k)) := by
  have h1 : shapeCast S512x128 x0 shapeCasts_S512x128_S512x128 = x0 := shapeCast_self _ _
  have h3 : shapeCast S128x2048 x1 shapeCasts_S128x2048_S128x2048 = x1 := shapeCast_self _ _
  unfold k0_pay2 k0_pay1
  rw [h1, h3]
  refine (rowmin_apply _ r 0).trans ?_
  refine congrArg (fun f => Finset.fold min Cert.Spec.inf f Finset.univ) (funext fun k => ?_)
  exact congrArg₂ (· - ·) (colsq_apply x1 r k) (congrArg (Cert.Spec.two * ·) (matmul_zero_apply _ _ r k))

/-- At a point `j = 0` the scratch column is set to the block minimum. -/
theorem pay3_apply (x0 : Vec Ideal S512x128 .f32) (x1 : Vec Ideal S128x2048 .f32) (r : Fin 512) :
    (k0_pay3 (F := Ideal) x0 x1 (ix2 r 0) : EReal) = k0_pay2 (F := Ideal) x0 x1 (ix2 r 0) := by
  unfold k0_pay3
  exact congrFun (shapeCast_self _ _) _

/-- At the other points it becomes the minimum of what it held and the block minimum. -/
theorem pay4_apply (x0 : Vec Ideal S512x128 .f32) (x1 : Vec Ideal S128x2048 .f32) (xs : Vec Ideal S512x1 .f32) (r : Fin 512) :
    (k0_pay4 (F := Ideal) x0 x1 xs (ix2 r 0) : EReal) = min (xs (ix2 r 0) : EReal) (k0_pay2 (F := Ideal) x0 x1 (ix2 r 0)) := by
  unfold k0_pay4
  exact congrFun (shapeCast_self _ _) _

/-- The first output at row `r`: the row's term of the scratch column plus `‖a_r‖²`, and of the column entry `e_r`. -/
theorem pay5_apply (x0 : Vec Ideal S512x128 .f32) (s e : Vec Ideal S512x1 .f32) (r : Fin 512) :
    (k0_pay5 (F := Ideal) x0 s e (ix2 r 0) : EReal)
      = Cert.Spec.term ((s (ix2 r 0) : EReal) + ∑ d : Fin 128, (x0 (ix2 r d) : EReal) * x0 (ix2 r d)) (e (ix2 r 0)) := by
  have h1 : shapeCast S512x128 x0 shapeCasts_S512x128_S512x128 = x0 := shapeCast_self _ _
  have h2 : shapeCast S512x1 e shapeCasts_S512x1_S512x1 = e := shapeCast_self _ _
  unfold k0_pay5 k0_pay1
  rw [h1, h2]
  exact congrArg (fun t => Cert.Spec.term ((s (ix2 r 0) : EReal) + t) (e (ix2 r 0))) (rowsq_apply x0 r 0)

/-- The second output at row `r`: the absolute value of the column entry. -/
theorem pay6_apply (p : Vec Ideal S512x1 .f32) (r : Fin 512) :
    (k0_pay6 (F := Ideal) p (ix2 r 0) : EReal) = Cert.Spec.eabs (p (ix2 r 0)) := by
  rfl

end Cert.KernelIdeal.Pay

end
-- ==== Proof.IdealReads.lean ====
import proofs.«139371_g19645180411971_cont_sun_c4_111_5_alg».proof.Proof.IdealFrame
import proofs.«139371_g19645180411971_cont_sun_c4_111_5_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run

/-!
# The blocks a grid point sees, entry by entry

The 64 grid points run in row-major order over 16 row blocks and 4 cloud blocks: point `t` is row block `t / 4` and
cloud block `t % 4`. Its block of the projected points `P` (and of the two columns) is rows `512·(t / 4) + r`; its
block of the transposed cloud is columns `2048·(t % 4) + k`, and entry `(d, k)` of that block is coordinate `d` of
cloud point `2048·(t % 4) + k`. The arrays the region finds are the host operations' results before it: the two
point arrays joined, the two evaluation columns joined, the cloud transposed.
-/

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The arrays both programs compute on, from the argument arrays: the projected points, the cloud, the two columns. -/
abbrev Pm (c : Dev nD) : Vec Ideal S8192x128 .f32 :=
  concatenate S8192x128 0 [⟨S4096x128, m ((c.tc : Thread nD τ).loc main_arg0)⟩, ⟨S4096x128, m ((c.tc : Thread nD τ).loc main_arg1)⟩] concatenates_S4096x128_S4096x128_S8192x128_d0
abbrev Cm (c : Dev nD) : Vec Ideal S8192x128 .f32 := m ((c.tc : Thread nD τ).loc main_arg2)
abbrev Em (c : Dev nD) : Vec Ideal S8192x1 .f32 :=
  concatenate S8192x1 0 [⟨S4096x1, m ((c.tc : Thread nD τ).loc main_arg3)⟩, ⟨S4096x1, m ((c.tc : Thread nD τ).loc main_arg4)⟩] concatenates_S4096x1_S4096x1_S8192x1_d0
abbrev Mm (c : Dev nD) : Vec Ideal S8192x1 .f32 := m ((c.tc : Thread nD τ).loc main_arg5)

/-- A grid point's number is below 64. -/
theorem pt_lt (t : Fin cfg0.N) : t.val < 64 := lt_of_lt_of_eq t.isLt (show cfg0.N = 64 from N_0)

/-- Row `r` of point `t`'s row block, as a row of the whole arrays. -/
def rowOf (t : Fin cfg0.N) (r : Fin 512) : Fin 8192 := ⟨512 * (t.val / 4) + r.val, by have := pt_lt t; omega⟩
/-- Column `k` of point `t`'s cloud block, as a cloud point. -/
def colOf (t : Fin cfg0.N) (k : Fin 2048) : Fin 8192 := ⟨2048 * (t.val % 4) + k.val, by omega⟩

/-! ## The index maps over the grid -/

/-- The projected points' window: block `(t / 4, 0)`. -/
theorem rd_idx0 : ∀ t : Fin cfg0.N, win0_0.index t (0 : Fin 2) = t.val / 4 ∧ win0_0.index t (1 : Fin 2) = 0 :=
  (by decide +kernel : ∀ t : Fin grid0.N, _)
/-- The transposed cloud's window: block `(0, t % 4)`. -/
theorem rd_idx1 : ∀ t : Fin cfg0.N, win0_1.index t (0 : Fin 2) = 0 ∧ win0_1.index t (1 : Fin 2) = t.val % 4 :=
  (by decide +kernel : ∀ t : Fin grid0.N, _)
/-- The evaluation column's window: block `(t / 4, 0)`. -/
theorem rd_idx2 : ∀ t : Fin cfg0.N, win0_2.index t (0 : Fin 2) = t.val / 4 ∧ win0_2.index t (1 : Fin 2) = 0 :=
  (by decide +kernel : ∀ t : Fin grid0.N, _)
/-- The second column's window: block `(t / 4, 0)`. -/
theorem rd_idx3 : ∀ t : Fin cfg0.N, win0_3.index t (0 : Fin 2) = t.val / 4 ∧ win0_3.index t (1 : Fin 2) = 0 :=
  (by decide +kernel : ∀ t : Fin grid0.N, _)
/-- The first output's window: block `(t / 4, 0)`. -/
theorem rd_idx4 : ∀ t : Fin cfg0.N, win0_4.index t (0 : Fin 2) = t.val / 4 ∧ win0_4.index t (1 : Fin 2) = 0 :=
  (by decide +kernel : ∀ t : Fin grid0.N, _)
/-- The second output's window: block `(t / 4, 0)`. -/
theorem rd_idx5 : ∀ t : Fin cfg0.N, win0_5.index t (0 : Fin 2) = t.val / 4 ∧ win0_5.index t (1 : Fin 2) = 0 :=
  (by decide +kernel : ∀ t : Fin grid0.N, _)

/-! ## The arrays the region finds -/

/-- The region finds the two point arrays joined. -/
theorem rd_V_main_v0 (c : Dev nD) : (V m c main_v0 : S8192x128.Idx → EReal) = Pm m c := by
  show StableHlo.after hostOps0 (fun b => m (c, b)) (Proc.devRef .tc main_v0) = _
  after_results

/-- The region finds the two evaluation columns joined. -/
theorem rd_V_main_v1 (c : Dev nD) : (V m c main_v1 : S8192x1.Idx → EReal) = Em m c := by
  show StableHlo.after hostOps0 (fun b => m (c, b)) (Proc.devRef .tc main_v1) = _
  after_results

/-- The region finds the cloud transposed. -/
theorem rd_V_main_v2 (c : Dev nD) : (V m c main_v2 : S128x8192.Idx → EReal)
    = transpose S128x8192 [1, 0] (Cm m c) transposes_S8192x128_S128x8192_1_0 := by
  show StableHlo.after hostOps0 (fun b => m (c, b)) (Proc.devRef .tc main_v2) = _
  after_results

/-- Entry `(d, j)` of the transposed array is entry `(j, d)` of the array. -/
theorem rd_transpose_at (X : Vec Ideal S8192x128 .f32) (d : Fin 128) (j : Fin 8192) :
    (transpose S128x8192 [1, 0] X transposes_S8192x128_S128x8192_1_0 (ix2 d j) : EReal) = X (ix2 j d) :=
  transpose_apply [1, 0] X transposes_S8192x128_S128x8192_1_0 (ix2 d j) (ix2 j d) (fun b => by
    match b with
    | ⟨0, _⟩ => rfl
    | ⟨1, _⟩ => rfl)

/-! ## The blocks, entry by entry -/

/-- The projected-points block at a point: rows `rowOf t r` of the joined point arrays. -/
theorem blkA_apply (c : Dev nD) (t : Fin cfg0.N) (r : Fin 512) (d : Fin 128) :
    (blkA m c t (ix2 r d) : EReal) = Pm m c (ix2 (rowOf t r) d) := by
  refine Eq.trans ?_ (congrFun (rd_V_main_v0 m c) (ix2 (rowOf t r) d))
  show V m c main_v0 (((cfg0.win 0).blk t).view.emb (ix2 r d)) = V m c main_v0 (ix2 (rowOf t r) d)
  refine congrArg _ ?_
  funext a; apply Fin.ext
  obtain ⟨e0, e1⟩ := rd_idx0 t
  match a with
  | ⟨0, _⟩ => show win0_0.index t (0 : Fin 2) * 512 + 1 * r.val = 512 * (t.val / 4) + r.val; omega
  | ⟨1, _⟩ => show win0_0.index t (1 : Fin 2) * 128 + 1 * d.val = d.val; omega

/-- The transposed-cloud block at a point: entry `(d, k)` is coordinate `d` of cloud point `colOf t k`. -/
theorem blkB_apply (c : Dev nD) (t : Fin cfg0.N) (d : Fin 128) (k : Fin 2048) :
    (blkB m c t (ix2 d k) : EReal) = Cm m c (ix2 (colOf t k) d) := by
  refine Eq.trans ?_ ((congrFun (rd_V_main_v2 m c) (ix2 d (colOf t k))).trans (rd_transpose_at (Cm m c) d (colOf t k)))
  show V m c main_v2 (((cfg0.win 1).blk t).view.emb (ix2 d k)) = V m c main_v2 (ix2 d (colOf t k))
  refine congrArg _ ?_
  funext a; apply Fin.ext
  obtain ⟨e0, e1⟩ := rd_idx1 t
  match a with
  | ⟨0, _⟩ => show win0_1.index t (0 : Fin 2) * 128 + 1 * d.val = d.val; omega
  | ⟨1, _⟩ => show win0_1.index t (1 : Fin 2) * 2048 + 1 * k.val = 2048 * (t.val % 4) + k.val; omega

/-- The evaluation-column block: rows `rowOf t r` of the joined columns. -/
theorem blkE_apply (c : Dev nD) (t : Fin cfg0.N) (r : Fin 512) :
    (blkE m c t (ix2 r 0) : EReal) = Em m c (ix2 (rowOf t r) 0) := by
  refine Eq.trans ?_ (congrFun (rd_V_main_v1 m c) (ix2 (rowOf t r) 0))
  show V m c main_v1 (((cfg0.win 2).blk t).view.emb (ix2 r 0)) = V m c main_v1 (ix2 (rowOf t r) 0)
  refine congrArg _ ?_
  funext a; apply Fin.ext
  obtain ⟨e0, e1⟩ := rd_idx2 t
  match a with
  | ⟨0, _⟩ => show win0_2.index t (0 : Fin 2) * 512 + 1 * r.val = 512 * (t.val / 4) + r.val; omega
  | ⟨1, _⟩ => show win0_2.index t (1 : Fin 2) * 1 + 1 * 0 = 0; omega

/-- The second column's block: rows `rowOf t r` of it. -/
theorem blkP_apply (c : Dev nD) (t : Fin cfg0.N) (r : Fin 512) :
    (blkP m c t (ix2 r 0) : EReal) = Mm m c (ix2 (rowOf t r) 0) := by
  refine Eq.trans ?_ (congrFun (V_main_arg5 m c) (ix2 (rowOf t r) 0))
  show V m c main_arg5 (((cfg0.win 3).blk t).view.emb (ix2 r 0)) = V m c main_arg5 (ix2 (rowOf t r) 0)
  refine congrArg _ ?_
  funext a; apply Fin.ext
  obtain ⟨e0, e1⟩ := rd_idx3 t
  match a with
  | ⟨0, _⟩ => show win0_3.index t (0 : Fin 2) * 512 + 1 * r.val = 512 * (t.val / 4) + r.val; omega
  | ⟨1, _⟩ => show win0_3.index t (1 : Fin 2) * 1 + 1 * 0 = 0; omega

/-- The first output's block at a point, read off a whole array: its rows `rowOf t r`. -/
theorem read4_apply (t : Fin cfg0.N) (G : Vec Ideal S8192x1 .f32) (r : Fin 512) :
    (((cfg0.win 4).blk t).view.read (Elt Ideal) G (ix2 r 0) : EReal) = G (ix2 (rowOf t r) 0) := by
  show G (((cfg0.win 4).blk t).view.emb (ix2 r 0)) = G (ix2 (rowOf t r) 0)
  refine congrArg G ?_
  funext a; apply Fin.ext
  obtain ⟨e0, e1⟩ := rd_idx4 t
  match a with
  | ⟨0, _⟩ => show win0_4.index t (0 : Fin 2) * 512 + 1 * r.val = 512 * (t.val / 4) + r.val; omega
  | ⟨1, _⟩ => show win0_4.index t (1 : Fin 2) * 1 + 1 * 0 = 0; omega

/-- The second output's block likewise. -/
theorem read5_apply (t : Fin cfg0.N) (G : Vec Ideal S8192x1 .f32) (r : Fin 512) :
    (((cfg0.win 5).blk t).view.read (Elt Ideal) G (ix2 r 0) : EReal) = G (ix2 (rowOf t r) 0) := by
  show G (((cfg0.win 5).blk t).view.emb (ix2 r 0)) = G (ix2 (rowOf t r) 0)
  refine congrArg G ?_
  funext a; apply Fin.ext
  obtain ⟨e0, e1⟩ := rd_idx5 t
  match a with
  | ⟨0, _⟩ => show win0_5.index t (0 : Fin 2) * 512 + 1 * r.val = 512 * (t.val / 4) + r.val; omega
  | ⟨1, _⟩ => show win0_5.index t (1 : Fin 2) * 1 + 1 * 0 = 0; omega

end Cert.KernelIdeal.KVal

end
-- ==== Proof.IdealBlocks.lean ====
import proofs.«139371_g19645180411971_cont_sun_c4_111_5_alg».proof.Proof.IdealFrame
import proofs.«139371_g19645180411971_cont_sun_c4_111_5_alg».proof.Proof.IdealPay
import proofs.«139371_g19645180411971_cont_sun_c4_111_5_alg».proof.Proof.IdealReads
import proofs.«139371_g19645180411971_cont_sun_c4_111_5_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run

/-!
# What the kernel writes back, as blocks of two whole-array functions

The region reads four arrays: the projected points `P` (the two point arrays joined), the cloud `C` transposed, the
column `E` (the two evaluation columns joined) and the column `M`. A grid point `t = 4·bi + j` sees rows
`512·bi … 512·bi + 511` of `P`, `E`, `M` and cloud points `2048·j … 2048·j + 2047`. At the points `j = 3`, the only ones
whose blocks are written back, the scratch column holds the four block minima folded from the left, so the first
output block is rows `512·bi …` of `G4`, the row's term of the kernel's squared distance, and the second those rows of
`G5`, the absolute values of `M`.
-/

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The first result array, whole: at row `i` the row's term of the kernel's squared distance and of `E`'s entry. -/
def G4 (c : Dev nD) : Vec Ideal S8192x1 .f32 := fun i =>
  Cert.Spec.term (Cert.Spec.nearestK (Pm m c) (Cm m c) ⟨(i 0).val, idx2_lt0 i⟩) (Em m c (ix2 ⟨(i 0).val, idx2_lt0 i⟩ 0))
/-- The second: the absolute value of `M`'s entry. -/
def G5 (c : Dev nD) : Vec Ideal S8192x1 .f32 := fun i => Cert.Spec.eabs (Mm m c (ix2 ⟨(i 0).val, idx2_lt0 i⟩ 0))

/-- The scratch column depends on the point's number only. -/
theorem flushed_accAt_congr (c : Dev nD) (n n' : ℕ) (h : n < cfg0.N) (h' : n' < cfg0.N) (e : n = n') :
    accAt m c n h = accAt m c n' h' := by
  subst e; rfl

/-- The scratch column after a point `j = 3`, at row `r`: the four block minima of the row block's points
    `j = 0, 1, 2, 3`, folded from the left. -/
theorem flushed_accAt_fold (c : Dev nD) (t0 t1 t2 t3 : Fin cfg0.N) (h0 : t0.val % 4 = 0)
    (h1 : t1.val = t0.val + 1) (h2 : t2.val = t0.val + 2) (h3 : t3.val = t0.val + 3) (r : Fin 512) :
    (accAt m c t3.val t3.isLt (ix2 r 0) : EReal)
      = min (min (min (k0_pay2 (F := Ideal) (blkA m c t0) (blkB m c t0) (ix2 r 0) : EReal)
                      (k0_pay2 (F := Ideal) (blkA m c t1) (blkB m c t1) (ix2 r 0)))
                 (k0_pay2 (F := Ideal) (blkA m c t2) (blkB m c t2) (ix2 r 0)))
            (k0_pay2 (F := Ideal) (blkA m c t3) (blkB m c t3) (ix2 r 0)) := by
  rw [accAt_next m c t3 (by omega), Cert.KernelIdeal.Pay.pay4_apply,
    flushed_accAt_congr m c (t3.val - 1) t2.val _ t2.isLt (by omega),
    accAt_next m c t2 (by omega), Cert.KernelIdeal.Pay.pay4_apply,
    flushed_accAt_congr m c (t2.val - 1) t1.val _ t1.isLt (by omega),
    accAt_next m c t1 (by omega), Cert.KernelIdeal.Pay.pay4_apply,
    flushed_accAt_congr m c (t1.val - 1) t0.val _ t0.isLt (by omega),
    accAt_first m c t0 h0, Cert.KernelIdeal.Pay.pay3_apply]

/-- A block minimum at row `r` is the kernel's minimum over cloud block `b` at row `i` of the whole arrays, when the row
    of the points' block is row `i` of `P` and the cloud's block is the transposed block `b` of `C`. -/
theorem flushed_blockMin_of (x0 : Vec Ideal S512x128 .f32) (x1 : Vec Ideal S128x2048 .f32) (P C : Vec Ideal S8192x128 .f32)
    (r : Fin 512) (i : Fin 8192) (b : Fin 4)
    (hA : ∀ d : Fin 128, (x0 (ix2 r d) : EReal) = P (ix2 i d))
    (hB : ∀ (d : Fin 128) (k : Fin 2048), (x1 (ix2 d k) : EReal) = C (ix2 (⟨2048 * b.val + k.val, by omega⟩ : Fin 8192) d)) :
    (k0_pay2 (F := Ideal) x0 x1 (ix2 r 0) : EReal) = Cert.Spec.blockMin P C i b := by
  rw [Cert.KernelIdeal.Pay.pay2_apply]
  unfold Cert.Spec.blockMin Cert.Spec.sq Cert.Spec.dot
  simp only [hA, hB]

/-- A point's block minimum at row `r`: the kernel's minimum over the point's cloud block at the row's place in the
    whole arrays. -/
theorem flushed_blockMin_at (c : Dev nD) (s : Fin cfg0.N) (r : Fin 512) (i : Fin 8192) (b : Fin 4)
    (hi : rowOf s r = i) (hb : s.val % 4 = b.val) :
    (k0_pay2 (F := Ideal) (blkA m c s) (blkB m c s) (ix2 r 0) : EReal) = Cert.Spec.blockMin (Pm m c) (Cm m c) i b := by
  have hk : ∀ k : Fin 2048, colOf s k = (⟨2048 * b.val + k.val, by omega⟩ : Fin 8192) := fun k => by
    unfold colOf; exact Fin.ext (by show 2048 * (s.val % 4) + k.val = 2048 * b.val + k.val; rw [hb])
  exact flushed_blockMin_of (blkA m c s) (blkB m c s) (Pm m c) (Cm m c) r i b
    (fun d => (blkA_apply m c s r d).trans (by rw [hi]))
    (fun d k => (blkB_apply m c s d k).trans (by rw [hk k]))

/-- The squared length of row `r` of a point's block of the projected points. -/
theorem flushed_sq_at (c : Dev nD) (t : Fin cfg0.N) (r : Fin 512) :
    (∑ d : Fin 128, (blkA m c t (ix2 r d) : EReal) * blkA m c t (ix2 r d)) = Cert.Spec.sq (Pm m c) (rowOf t r) := by
  unfold Cert.Spec.sq
  simp only [blkA_apply]

/-- What a point `j = 3` leaves in the first output's buffer is its block of `G4`. -/
theorem flushed4 (c : Dev nD) (t : Fin cfg0.N) (h3 : t.val % 4 = 3) :
    ftAt m c t = ((cfg0.win 4).blk t).view.read (Elt Ideal) (G4 m c) := by
  funext y
  obtain ⟨r, q, rfl⟩ : ∃ (r : Fin 512) (q : Fin 1), y = ix2 r q := ⟨y 0, y 1, eq_ix2 y⟩
  obtain rfl : q = 0 := Subsingleton.elim _ _
  refine Eq.trans ?_ (read4_apply t (G4 m c) r).symm
  unfold ftAt
  refine (Cert.KernelIdeal.Pay.pay5_apply (blkA m c t) (accAt m c t.val t.isLt) (blkE m c t) r).trans ?_
  have hlt := t.isLt
  have hrow : ∀ s : Fin cfg0.N, s.val / 4 = t.val / 4 → rowOf s r = rowOf t r := fun s hs => by
    unfold rowOf; exact Fin.ext (by show 512 * (s.val / 4) + r.val = 512 * (t.val / 4) + r.val; rw [hs])
  rw [flushed_accAt_fold m c ⟨t.val - 3, by omega⟩ ⟨t.val - 2, by omega⟩ ⟨t.val - 1, by omega⟩ t
      (by show (t.val - 3) % 4 = 0; omega) (by show t.val - 2 = t.val - 3 + 1; omega)
      (by show t.val - 1 = t.val - 3 + 2; omega) (by show t.val = t.val - 3 + 3; omega) r,
    flushed_blockMin_at m c ⟨t.val - 3, by omega⟩ r (rowOf t r) 0 (hrow _ (by show (t.val - 3) / 4 = t.val / 4; omega))
      (by show (t.val - 3) % 4 = 0; omega),
    flushed_blockMin_at m c ⟨t.val - 2, by omega⟩ r (rowOf t r) 1 (hrow _ (by show (t.val - 2) / 4 = t.val / 4; omega))
      (by show (t.val - 2) % 4 = 1; omega),
    flushed_blockMin_at m c ⟨t.val - 1, by omega⟩ r (rowOf t r) 2 (hrow _ (by show (t.val - 1) / 4 = t.val / 4; omega))
      (by show (t.val - 1) % 4 = 2; omega),
    flushed_blockMin_at m c t r (rowOf t r) 3 rfl (by show t.val % 4 = 3; exact h3),
    flushed_sq_at, blkE_apply]
  rfl

/-- And in the second's its block of `G5`. -/
theorem flushed5 (c : Dev nD) (t : Fin cfg0.N) (h3 : t.val % 4 = 3) :
    mpAt m c t = ((cfg0.win 5).blk t).view.read (Elt Ideal) (G5 m c) := by
  funext y
  obtain ⟨r, q, rfl⟩ : ∃ (r : Fin 512) (q : Fin 1), y = ix2 r q := ⟨y 0, y 1, eq_ix2 y⟩
  obtain rfl : q = 0 := Subsingleton.elim _ _
  refine Eq.trans ?_ (read5_apply t (G5 m c) r).symm
  unfold mpAt
  refine (Cert.KernelIdeal.Pay.pay6_apply (blkP m c t) r).trans ?_
  rw [blkP_apply]
  unfold G5
  rfl

end Cert.KernelIdeal.KVal

end
-- ==== Proof.IdealArrays.lean ====
import proofs.«139371_g19645180411971_cont_sun_c4_111_5_alg».proof.Proof.IdealBlocks
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run

/-!
# The kernel's three results

The sixteen points `j = 3` write back the sixteen blocks of 512 rows that tile each result array, so after the region
the two arrays are `G4` and `G5` whole. The host operations after the region take each array's sum over both axes
from `0`, divide by `8192`, and combine the two means with the integer weight.
-/

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

variable (ρ : Dev nD → PrngReg)

/-- The block index of the first output at a grid point: the point's first coordinate on the rows, `0` on the single column. -/
theorem idx0_4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)
theorem idx0_5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- An index of the array is in point `t`'s block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v3_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v3_1).slice (win0_5.rect t)).set ↔ _
  rw [View.set_slice_whole, Rect.mem_set_unit]
  exact Iff.rfl

/-- Every row lies in the block of the point `j = 3` of its block of 512 rows. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hlt : 4 * ((i 0).val / 512) + 3 < cfg0.N := lt_of_lt_of_eq (by omega : 4 * ((i 0).val / 512) + 3 < 64) N_0.symm
  refine ⟨⟨4 * ((i 0).val / 512) + 3, hlt⟩, (flush0_4 _).mpr (by show (4 * ((i 0).val / 512) + 3) % 4 = 3; omega), ?_⟩
  rw [mem_blk4]
  obtain ⟨e0, e1⟩ := idx0_4 ⟨4 * ((i 0).val / 512) + 3, hlt⟩
  have e0' : win0_4.index ⟨4 * ((i 0).val / 512) + 3, hlt⟩ (0 : Fin 2) = (i 0).val / 512 := by
    rw [e0]; show (4 * ((i 0).val / 512) + 3) / 4 = _; omega
  intro a
  match a with
  | ⟨0, _⟩ => show win0_4.index _ (0 : Fin 2) * 512 ≤ (i 0).val ∧ (i 0).val < win0_4.index _ (0 : Fin 2) * 512 + 512; rw [e0']; omega
  | ⟨1, _⟩ => show win0_4.index _ (1 : Fin 2) * 1 ≤ (i 1).val ∧ (i 1).val < win0_4.index _ (1 : Fin 2) * 1 + 1; rw [e1]; omega

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hlt : 4 * ((i 0).val / 512) + 3 < cfg0.N := lt_of_lt_of_eq (by omega : 4 * ((i 0).val / 512) + 3 < 64) N_0.symm
  refine ⟨⟨4 * ((i 0).val / 512) + 3, hlt⟩, (flush0_5 _).mpr (by show (4 * ((i 0).val / 512) + 3) % 4 = 3; omega), ?_⟩
  rw [mem_blk5]
  obtain ⟨e0, e1⟩ := idx0_5 ⟨4 * ((i 0).val / 512) + 3, hlt⟩
  have e0' : win0_5.index ⟨4 * ((i 0).val / 512) + 3, hlt⟩ (0 : Fin 2) = (i 0).val / 512 := by
    rw [e0]; show (4 * ((i 0).val / 512) + 3) / 4 = _; omega
  intro a
  match a with
  | ⟨0, _⟩ => show win0_5.index _ (0 : Fin 2) * 512 ≤ (i 0).val ∧ (i 0).val < win0_5.index _ (0 : Fin 2) * 512 + 512; rw [e0']; omega
  | ⟨1, _⟩ => show win0_5.index _ (1 : Fin 2) * 1 ≤ (i 1).val ∧ (i 1).val < win0_5.index _ (1 : Fin 2) * 1 + 1; rw [e1]; omega

/-- After the region the first result array is `G4`, -/
theorem final4 (c : Dev nD) : (dats m 0 c).arrAt 4 cfg0.N = G4 m c := by
  refine (dats m 0 c).arrAt_eq_of_cover 4 (G4 m c) (fun t hf => ?_) cover4
  show (cfg0.win 4).cut (cfg0.grid.coords t) ((dats m 0 c).after 4 t) = _
  rw [after4]
  exact flushed4 m c t ((flush0_4 t).mp hf)
/-- and the second `G5`. -/
theorem final5 (c : Dev nD) : (dats m 0 c).arrAt 5 cfg0.N = G5 m c := by
  refine (dats m 0 c).arrAt_eq_of_cover 5 (G5 m c) (fun t hf => ?_) cover5
  show (cfg0.win 5).cut (cfg0.grid.coords t) ((dats m 0 c).after 5 t) = _
  rw [after5]
  exact flushed5 m c t ((flush0_5 t).mp hf)

/-- The mean the host takes of a result array. -/
def hostMean (X : FVec Ideal S8192x1 .f32) : FVec Ideal S_ .f32 :=
  Host.divf (F := Ideal) (Host.reduceAdd (F := Ideal) X (constant (F := Ideal) S_ .f32 0x00000000#32) reducesTo_S8192x1_S_d0_1 h_S_) (constant (F := Ideal) S_ .f32 0x46000000#32)

/-- It is the mean of the column's 8192 entries. -/
theorem hostMean_apply (X : FVec Ideal S8192x1 .f32) : hostMean X = fun _ => Cert.Spec.mean (fun i => (X (ix2 i 0) : EReal)) := by
  funext j
  have hsum : Host.reduceAdd (F := Ideal) X (constant (F := Ideal) S_ .f32 0x00000000#32) reducesTo_S8192x1_S_d0_1 h_S_ j
      = Ideal.ofBits .f32 0x00000000#32 + ∑ i : S8192x1.Idx, X i := by
    simp only [Host.reduceAdd, Ideal.hostReduceAdd_def]
    exact Ideal.hostReduceAdd_total reducesTo_S8192x1_S_d0_1 (fun b => b.elim0) X _ j
  show Ideal.div (Host.reduceAdd (F := Ideal) X (constant (F := Ideal) S_ .f32 0x00000000#32) reducesTo_S8192x1_S_d0_1 h_S_ j) (Ideal.ofBits .f32 0x46000000#32) = _
  rw [hsum, ValueIdx.sum_idx2]
  unfold Cert.Spec.mean
  simp only [Fin.sum_univ_one]

/-- The first result array as the host operations after the region find it, -/
theorem tail_arr4 (c : Dev nD) :
    Pipeline.withArrays (cfgs 0).spec c (V0 m c) (fun w => (dats m 0 c).arrAt w (cfgs 0).N) (Proc.devRef .tc main_v3_0) = G4 m c :=
  (Pipeline.withArrays_arr spec0 launch0.win.arr_inj c _ _ 4).trans (final4 m c)
/-- the second, -/
theorem tail_arr5 (c : Dev nD) :
    Pipeline.withArrays (cfgs 0).spec c (V0 m c) (fun w => (dats m 0 c).arrAt w (cfgs 0).N) (Proc.devRef .tc main_v3_1) = G5 m c :=
  (Pipeline.withArrays_arr spec0 launch0.win.arr_inj c _ _ 5).trans (final5 m c)
/-- and the integer weight, which no window stages and no host operation before the region writes. -/
theorem tail_arg6 (c : Dev nD) :
    Pipeline.withArrays (cfgs 0).spec c (V0 m c) (fun w => (dats m 0 c).arrAt w (cfgs 0).N) (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)

/-- What the host operations after the region leave in the first mean's buffer, -/
theorem tail_v5 (c : Dev nD) :
    Pipeline.afterTail₀ cfgs (dats m) 0 (V0 m) [hostOps1] c main_v5 = hostMean (G4 m c) := by
  unfold Pipeline.afterTail₀
  show StableHlo.after hostOps1 _ (Proc.devRef .tc main_v5) = _
  after_results
  rw [tail_arr4]
  rfl
/-- in the second mean's, -/
theorem tail_v7 (c : Dev nD) :
    Pipeline.afterTail₀ cfgs (dats m) 0 (V0 m) [hostOps1] c main_v7 = hostMean (G5 m c) := by
  unfold Pipeline.afterTail₀
  show StableHlo.after hostOps1 _ (Proc.devRef .tc main_v7) = _
  after_results
  rw [tail_arr5]
  rfl
/-- and in the weighted combination's. -/
theorem tail_v10 (c : Dev nD) :
    Pipeline.afterTail₀ cfgs (dats m) 0 (V0 m) [hostOps1] c main_v10
      = addf (F := Ideal) (hostMean (G4 m c)) (mulf (F := Ideal) (sitofp (F := Ideal) .f32 (m ((c.tc : Thread nD τ).loc main_arg6))) (hostMean (G5 m c))) := by
  unfold Pipeline.afterTail₀
  show StableHlo.after hostOps1 _ (Proc.devRef .tc main_v10) = _
  after_results
  rw [tail_arr4, tail_arr5, tail_arg6]
  rfl

/-- THE KERNEL'S RUN at the ideal values: it terminates, the three results are the weighted combination and the two means
    of `G4` and `G5`, and the argument arrays end as they were. -/
theorem results :
    θ_run defs (onTc (τ := τ) (main (F := Ideal))) ⟨m, fun _ => 0, ρ⟩ (fun r => ∀ c : Dev nD,
      r.2.mem ((c.tc : Thread nD τ).loc main_v10)
          = addf (F := Ideal) (hostMean (G4 m c)) (mulf (F := Ideal) (sitofp (F := Ideal) .f32 (m ((c.tc : Thread nD τ).loc main_arg6))) (hostMean (G5 m c)))
      ∧ r.2.mem ((c.tc : Thread nD τ).loc main_v5) = hostMean (G4 m c)
      ∧ r.2.mem ((c.tc : Thread nD τ).loc main_v7) = hostMean (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_v10 (Pipeline.mem_restRefs_of main_v10 (by decide) (by decide))).trans (tail_v10 m c)),
      (((h c).2 main_v5 (Pipeline.mem_restRefs_of main_v5 (by decide) (by decide))).trans (tail_v5 m c)),
      (((h c).2 main_v7 (Pipeline.mem_restRefs_of main_v7 (by decide) (by decide))).trans (tail_v7 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c))⟩)
    (run_main m ρ)

end Cert.KernelIdeal.KVal

end
-- ==== Proof.RefValue.lean ====
import proofs.«139371_g19645180411971_cont_sun_c4_111_5_alg».proof.Defs
import proofs.«139371_g19645180411971_cont_sun_c4_111_5_alg».proof.Proof.Gen.ReferenceIdeal
import proofs.«139371_g19645180411971_cont_sun_c4_111_5_alg».proof.Proof.RefRun
import proofs.«139371_g19645180411971_cont_sun_c4_111_5_alg».proof.Proof.RefRead
import proofs.«139371_g19645180411971_cont_sun_c4_111_5_alg».proof.Proof.Spec
import Idealize.ShloMosaic.PureOps.Ideal.Laws
import Idealize.ShloMosaic.PureOps.Reduce
import Idealize.ShloMosaic.Lib.ValueIdx
import Idealize.ShloMosaic.Lib.ValueIdxRank1
import Idealize.ShloMosaic.Lib.ValueLayout
import Idealize.ShloMosaic.Lib.Pipeline.Value

/-!
# The reference's three results

The reference forms the whole 8192 × 8192 matrix `(‖p_i‖² + ‖c_j‖²) − 2⟨p_i, c_j⟩`, takes each row's minimum from `+∞`,
then the row's term against `0 + |e_i|` (a sum over an axis of length one), and the means of the terms and of
`0 + |m_i|`. Read stage by stage at an index, row `i` of its first vector is the row's term of `nearestR` and row `i` of
its second `|m_i|`; the two means and their weighted combination follow.
-/

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP

/-- The two joined arrays: the projected points and the evaluation column. -/
abbrev Pr (x0 x1 : Vec Ideal S4096x128 .f32) : Vec Ideal S8192x128 .f32 :=
  concatenate S8192x128 0 [⟨S4096x128, x0⟩, ⟨S4096x128, x1⟩] concatenates_S4096x128_S4096x128_S8192x128_d0
abbrev Er (x3 x4 : Vec Ideal S4096x1 .f32) : Vec Ideal S8192x1 .f32 :=
  concatenate S8192x1 0 [⟨S4096x1, x3⟩, ⟨S4096x1, x4⟩] concatenates_S4096x1_S4096x1_S8192x1_d0

/-- Row `i` of the joined points, squared and summed along the row. -/
theorem sqP_at (x0 x1 : Vec Ideal S4096x128 .f32) (i : Fin 8192) :
    (val_main_v3 (F := Ideal) x0 x1 (ix1 i) : EReal) = Cert.Spec.sq (Pr x0 x1) i := by
  rw [val_main_v3_apply, val_main_cst_apply, Ideal.ofBits_def, Ideal.ofBits_zero_f32, zero_add]
  unfold Cert.Spec.sq
  refine Finset.sum_congr rfl fun k _ => ?_
  have e : idx_main_v3 (ix1 i) k = ix2 i k := funext fun a => Fin.ext (by match a with | ⟨0, _⟩ => rfl | ⟨1, _⟩ => rfl)
  rw [e, val_main_v2_apply, Ideal.mulf_def]
  rfl

/-- Row `j` of the cloud, squared and summed along the row. -/
theorem sqC_at (x2 : Vec Ideal S8192x128 .f32) (j : Fin 8192) :
    (val_main_v6 (F := Ideal) x2 (ix1 j) : EReal) = Cert.Spec.sq x2 j := by
  rw [val_main_v6_apply, val_main_cst_0_apply, Ideal.ofBits_def, Ideal.ofBits_zero_f32, zero_add]
  unfold Cert.Spec.sq
  refine Finset.sum_congr rfl fun k _ => ?_
  have e : idx_main_v6 (ix1 j) k = ix2 j k := funext fun a => Fin.ext (by match a with | ⟨0, _⟩ => rfl | ⟨1, _⟩ => rfl)
  rw [e, val_main_v5_apply, Ideal.mulf_def]

/-- Entry `(i, j)` of the product with the transposed cloud: the inner product of row `i` and row `j`. -/
theorem dot_at (x0 x1 : Vec Ideal S4096x128 .f32) (x2 : Vec Ideal S8192x128 .f32) (i j : Fin 8192) :
    (val_main_v12 (F := Ideal) x0 x1 x2 (ix2 i j) : EReal) = Cert.Spec.dot (Pr x0 x1) x2 i j := by
  rw [val_main_v12_apply]
  unfold Cert.Spec.dot
  refine Finset.sum_congr rfl fun k _ => ?_
  have el : lidx_main_v12 (ix2 i j) k = ix2 i k := funext fun a => Fin.ext (by match a with | ⟨0, _⟩ => rfl | ⟨1, _⟩ => rfl)
  have er : idx_main_v11 (ridx_main_v12 (ix2 i j) k) = ix2 j k := funext fun a => Fin.ext (by match a with | ⟨0, _⟩ => rfl | ⟨1, _⟩ => rfl)
  rw [val_main_v11_apply, el, er]
  rfl

/-- Entry `(i, j)` of the full matrix of squared distances. -/
theorem dist_at (x0 x1 : Vec Ideal S4096x128 .f32) (x2 : Vec Ideal S8192x128 .f32) (i j : Fin 8192) :
    (val_main_v15 (F := Ideal) x0 x1 x2 (ix2 i j) : EReal)
      = (Cert.Spec.sq (Pr x0 x1) i + Cert.Spec.sq x2 j) - Cert.Spec.two * Cert.Spec.dot (Pr x0 x1) x2 i j := by
  have e4 : idx_main_v4 (idx_main_v8 (ix2 i j)) = ix1 i := funext fun a => Fin.ext (by match a with | ⟨0, _⟩ => rfl)
  have e7 : idx_main_v7 (idx_main_v9 (ix2 i j)) = ix1 j := funext fun a => Fin.ext (by match a with | ⟨0, _⟩ => rfl)
  rw [val_main_v15_apply, val_main_v10_apply, val_main_v8_apply, val_main_v4_apply, e4, sqP_at,
    val_main_v9_apply, val_main_v7_apply, e7, sqC_at, val_main_v14_apply, val_main_v13_apply, val_main_cst_1_apply, dot_at,
    Ideal.ofBits_def, Ideal.subf_def, Ideal.addf_def, Ideal.mulf_def]
  rfl

/-- The reduced index `i` with coordinate `k` put back on the dropped axis is `(i, k)`. -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-- The row minimum from `+∞` of a matrix known entry by entry is the fold of `min` over the row's entries. -/
theorem rowMin_fold (y : Vec Ideal S8192x8192 .f32) (g : Fin 8192 → Fin 8192 → EReal)
    (hy : ∀ i j, (y (ix2 i j) : EReal) = g i j) (i : Fin 8192) :
    (Host.reduce (FloatOps.minimumf (F := Ideal) (φ := .f32)) y (val_main_cst_2 (F := Ideal)) reducesTo_S8192x8192_S8192_d1 h_S_ (ix1 i) : EReal)
      = (Finset.univ : Finset (Fin 8192)).fold min Cert.Spec.inf (g i) := by
  have h : S8192x8192.Reduces [1] S8192 := by decide
  rw [Host.reduce_eq_fold_single (FloatOps.minimumf (F := Ideal) (φ := .f32)) y _ reducesTo_S8192x8192_S8192_d1 h h_S_, val_main_cst_2_apply, Ideal.ofBits_def]
  have hf : (y ∘ h.lift (ix1 i)) = fun j : Fin 8192 => g i j := funext fun k => by
    show y (h.lift (ix1 i) k) = _
    rw [lift_row h i k]; exact hy i _
  unfold Cert.Spec.inf
  exact congrArg (fun f => Finset.fold min (Ideal.ofBits .f32 0x7F800000#32) f (Finset.univ : Finset (Fin 8192))) hf

/-- Row `i` of the row minima: the squared distance from row `i` to the nearest cloud point. -/
theorem nearest_at (x0 x1 : Vec Ideal S4096x128 .f32) (x2 : Vec Ideal S8192x128 .f32) (i : Fin 8192) :
    (val_main_v16 (F := Ideal) x0 x1 x2 (ix1 i) : EReal) = Cert.Spec.nearestR (Pr x0 x1) x2 i := by
  unfold val_main_v16 Cert.Spec.nearestR
  exact rowMin_fold (val_main_v15 (F := Ideal) x0 x1 x2) _ (dist_at x0 x1 x2) i

/-- Row `i` of the reference's first vector: the row's term of its squared distance to the nearest cloud point. -/
theorem ref_first (x0 x1 : Vec Ideal S4096x128 .f32) (x2 : Vec Ideal S8192x128 .f32) (x3 x4 : Vec Ideal S4096x1 .f32) (i : Fin 8192) :
    (val_main_v24 (F := Ideal) x0 x1 x2 x3 x4 (ix1 i) : EReal)
      = Cert.Spec.term (Cert.Spec.nearestR (Pr x0 x1) x2 i) (Er x3 x4 (ix2 i 0)) := by
  have e22 : idx_main_v22 (ix1 i) (0 : Fin 1) = ix2 i (0 : Fin 1) :=
    funext fun a => Fin.ext (by match a with | ⟨0, _⟩ => rfl | ⟨1, _⟩ => rfl)
  rw [val_main_v24_apply, val_main_v23_apply, val_main_v20_apply, val_main_v19_apply, val_main_v17_apply, nearest_at,
    val_main_v18_apply, val_main_cst_3_apply, val_main_v22_apply, val_main_cst_4_apply, Fin.sum_univ_one, e22,
    val_main_v21_apply]
  unfold Cert.Spec.term Cert.Spec.eabs Cert.Spec.eps
  simp only [Ideal.hostAbsf_def, Ideal.absf_def, Ideal.hostUnary_sqrt_def, Ideal.ofBits_def, Ideal.ofBits_zero_f32, zero_add,
    Ideal.addf_def, Ideal.subf_def]
  rfl

/-- Row `i` of its second vector: `|m_i|`. -/
theorem ref_second (x5 : Vec Ideal S8192x1 .f32) (i : Fin 8192) :
    (val_main_v26 (F := Ideal) x5 (ix1 i) : EReal) = Cert.Spec.eabs (x5 (ix2 i 0)) := by
  have e26 : idx_main_v26 (ix1 i) (0 : Fin 1) = ix2 i (0 : Fin 1) :=
    funext fun a => Fin.ext (by match a with | ⟨0, _⟩ => rfl | ⟨1, _⟩ => rfl)
  rw [val_main_v26_apply, val_main_cst_5_apply, Fin.sum_univ_one, e26, val_main_v25_apply, Ideal.ofBits_def,
    Ideal.ofBits_zero_f32, zero_add, Ideal.hostAbsf_def, Ideal.absf_def]
  rfl

/-- A sum over the indices of a vector of 8192 rows, known row by row, is the sum over the rows. -/
theorem sum_rows (y : Vec Ideal S8192 .f32) (f : Fin 8192 → EReal) (hy : ∀ i, (y (ix1 i) : EReal) = f i) :
    (∑ j : S8192.Idx, (y j : EReal)) = ∑ i : Fin 8192, f i := by
  rw [← Equiv.sum_comp (idxEquiv1 (n := 8192)).symm (fun j => (y j : EReal))]
  exact Finset.sum_congr rfl fun i _ => hy i

/-- The mean of the first terms. -/
theorem ref_mean1 (x0 x1 : Vec Ideal S4096x128 .f32) (x2 : Vec Ideal S8192x128 .f32) (x3 x4 : Vec Ideal S4096x1 .f32) :
    val_main_v35 (F := Ideal) x0 x1 x2 x3 x4
      = fun _ => Cert.Spec.mean (fun i => Cert.Spec.term (Cert.Spec.nearestR (Pr x0 x1) x2 i) (Er x3 x4 (ix2 i 0))) := by
  funext s
  rw [val_main_v35_apply, val_main_v34_apply, val_main_cst_10_apply, val_main_cst_11_apply, Ideal.hostDivf_def,
    Ideal.ofBits_def, Ideal.ofBits_def, sum_rows _ _ (ref_first x0 x1 x2 x3 x4)]
  rfl

/-- The mean of the second terms. -/
theorem ref_mean2 (x5 : Vec Ideal S8192x1 .f32) :
    val_main_v37 (F := Ideal) x5 = fun _ => Cert.Spec.mean (fun i => Cert.Spec.eabs (x5 (ix2 i 0))) := by
  funext s
  rw [val_main_v37_apply, val_main_v36_apply, val_main_cst_12_apply, val_main_cst_13_apply, Ideal.hostDivf_def,
    Ideal.ofBits_def, Ideal.ofBits_def, sum_rows _ _ (ref_second x5)]
  rfl

/-- The loss: the first mean plus the integer weight times the second. -/
theorem ref_loss (x0 x1 : Vec Ideal S4096x128 .f32) (x2 : Vec Ideal S8192x128 .f32) (x3 x4 : Vec Ideal S4096x1 .f32)
    (x5 : Vec Ideal S8192x1 .f32) (x6 : (⟨S_, .i32⟩ : BufTy).Contents (Elt Ideal)) :
    val_main_v33 (F := Ideal) x0 x1 x2 x3 x4 x5 x6
      = addf (val_main_v35 (F := Ideal) x0 x1 x2 x3 x4) (mulf (sitofp (F := Ideal) .f32 x6) (val_main_v37 (F := Ideal) x5)) := by
  have h1 : val_main_v28 (F := Ideal) x0 x1 x2 x3 x4 = val_main_v35 (F := Ideal) x0 x1 x2 x3 x4 := by
    unfold val_main_v28 val_main_v35 val_main_v27 val_main_v34
    generalize val_main_v24 (F := Ideal) x0 x1 x2 x3 x4 = y
    rfl
  have h2 : val_main_v30 (F := Ideal) x5 = val_main_v37 (F := Ideal) x5 := by
    unfold val_main_v30 val_main_v37 val_main_v29 val_main_v36
    generalize val_main_v26 (F := Ideal) x5 = y
    rfl
  unfold val_main_v33 val_main_v32 val_main_v31
  rw [h1, h2]

end Cert.ReferenceIdeal.RefValue

end
-- ==== Proof.lean ====
/-
  The kernel computes, for each of 8192 projected points, the squared distance to the nearest of 8192 cloud points, and
  from it a loss: the mean of `| √(|d_i| + ε) − |e_i| |`, the mean of `|m_i|`, and the first plus an integer weight times
  the second. It never forms the 8192 × 8192 distance matrix: on a 16 × 4 grid it takes, for 512 rows at a time, the
  minimum over 2048 cloud points of `‖c_j‖² − 2⟨p_i, c_j⟩`, keeps the running minimum of the four blocks in a scratch
  column, and at the fourth block adds `‖p_i‖²` and writes the row's two terms; the host then takes the two means.
  The reference forms `(‖p_i‖² + ‖c_j‖²) − 2⟨p_i, c_j⟩` whole and takes each row's minimum.

  Over the extended reals the two agree exactly. The matrix product on 16-bit-rounded operands is the exact product
  (a change of float format is the identity), the lane sums and the host's sums are finite sums; and
  `min_j (x_j) + a = min_j (a + x_j)` for every `a ≠ −∞` — adding a fixed number is monotone — while `‖p_i‖²`, a sum of
  squares, is never `−∞` (`Cert.Spec.nearestK_eq_nearestR`); sums over an axis of length one add `0`. No finiteness
  of the inputs is used.

  The frames: the reference is a host program and its run is read back operation by operation. The kernel's program
  is one pipelined region between host operations; what its scratch column holds after each grid point is a recursion
  on the point, the body's triple is proved case by case of the second grid coordinate, and the library's run of a
  region with a tracked invariant gives termination, no fault, and the arguments unchanged — the same text at the
  word-level values and at the ideal ones. The ideal pass rewrote nothing, so `preserves` has no conjunct.
-/
import proofs.«139371_g19645180411971_cont_sun_c4_111_5_alg».proof.Defs
import proofs.«139371_g19645180411971_cont_sun_c4_111_5_alg».proof.Proof.Gen.Kernel
import proofs.«139371_g19645180411971_cont_sun_c4_111_5_alg».proof.Proof.Gen.KernelIdeal
import proofs.«139371_g19645180411971_cont_sun_c4_111_5_alg».proof.Proof.Gen.ReferenceIdeal
import proofs.«139371_g19645180411971_cont_sun_c4_111_5_alg».proof.Proof.Gen.Pre_finite_inputs
import proofs.«139371_g19645180411971_cont_sun_c4_111_5_alg».proof.Proof.BitsFrame
import proofs.«139371_g19645180411971_cont_sun_c4_111_5_alg».proof.Proof.IdealFrame
import proofs.«139371_g19645180411971_cont_sun_c4_111_5_alg».proof.Proof.IdealArrays
import proofs.«139371_g19645180411971_cont_sun_c4_111_5_alg».proof.Proof.RefRun
import proofs.«139371_g19645180411971_cont_sun_c4_111_5_alg».proof.Proof.RefRead
import proofs.«139371_g19645180411971_cont_sun_c4_111_5_alg».proof.Proof.RefValue
import proofs.«139371_g19645180411971_cont_sun_c4_111_5_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs' results are one function of the arguments -/

section Bridge

open Cert.ReferenceIdeal.ReadP Cert.ReferenceIdeal.RefValue Cert.KernelIdeal.KVal

variable (m : (ℓ : Loc Cert.KernelIdeal.nD Cert.KernelIdeal.τ Cert.KernelIdeal.sig) → Buf (Elt Ideal) ℓ) (c : Dev Cert.KernelIdeal.nD)

/-- Row `i` of the kernel's first result array, named by its row. -/
theorem G4_row (i : Fin 8192) :
    (G4 m c (ix2 i 0) : EReal) = Cert.Spec.term (Cert.Spec.nearestK (Pm m c) (Cm m c) i) (Em m c (ix2 i 0)) := rfl
theorem G5_row (i : Fin 8192) : (G5 m c (ix2 i 0) : EReal) = Cert.Spec.eabs (Mm m c (ix2 i 0)) := rfl

/-- The mean of the first terms: the reference's one minimum over all cloud points is the kernel's four block minima
    folded, plus `‖p_i‖²`. -/
theorem mean1_eq :
    val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = hostMean (G4 m c) := by
  rw [ref_mean1, hostMean_apply]
  funext _
  refine congrArg Cert.Spec.mean (funext fun i => ?_)
  rw [G4_row, Cert.Spec.nearestK_eq_nearestR]

/-- The mean of the second terms. -/
theorem mean2_eq :
    val_main_v37 (F := Ideal) (m ((c.tc : Thread Cert.KernelIdeal.nD Cert.KernelIdeal.τ).loc Cert.KernelIdeal.main_arg5)) = hostMean (G5 m c) := by
  rw [ref_mean2, hostMean_apply]
  funext _
  refine congrArg Cert.Spec.mean (funext fun i => ?_)
  rw [G5_row]

/-- The loss. -/
theorem loss_eq :
    val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = addf (F := Ideal) (hostMean (G4 m c)) (mulf (F := Ideal) (sitofp (F := Ideal) .f32 (m ((c.tc : Thread Cert.KernelIdeal.nD Cert.KernelIdeal.τ).loc Cert.KernelIdeal.main_arg6))) (hostMean (G5 m c))) := by
  rw [ref_loss, mean1_eq, mean2_eq]

end Bridge

/-! ## The claims -/

theorem frame_p : Cert.frame_Kernel := fun m ρ _ => Cert.Kernel.Body.frame m ρ
theorem frame_pi : Cert.frame_KernelIdeal := fun m ρ _ => Cert.KernelIdeal.Body.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote no operation. -/
theorem preserves : Cert.preserves_Kernel_KernelIdeal := trivial

/-- From memories agreeing on the arguments both programs run, and end with the same three numbers. -/
theorem algebraic : Cert.algebraic_KernelIdeal_ReferenceIdeal := by
  intro m ρ m' ρ' _ hagree
  refine ⟨_, _, _, Cert.KernelIdeal.KVal.results m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · rw [(hagree c).1, (hagree c).2.1, (hagree c).2.2.1, (hagree c).2.2.2.1, (hagree c).2.2.2.2.1, (hagree c).2.2.2.2.2.1, (hagree c).2.2.2.2.2.2]
    exact (Cert.ReferenceIdeal.ReadP.val_main_v33_eq _ _ _ _ _ _ _).trans (loss_eq m c)
  · rw [(hagree c).1, (hagree c).2.1, (hagree c).2.2.1, (hagree c).2.2.2.1, (hagree c).2.2.2.2.1]
    exact (Cert.ReferenceIdeal.ReadP.val_main_v35_eq _ _ _ _ _).trans (mean1_eq m c)
  · rw [(hagree c).2.2.2.2.2.1]
    exact (Cert.ReferenceIdeal.ReadP.val_main_v37_eq _).trans (mean2_eq m c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
